-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S500000x4 : Shape := ⟨2, ![500000, 4]⟩
abbrev S388x128 : Shape := ⟨2, ![388, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x4 : S_.BroadcastsInDim S500000x4 (![] : Fin 0 → Fin S500000x4.rank)
  reducesTo_S500000x4_S_d0_1 : S500000x4.ReducesTo [0, 1] S_
  bcast_S_S388x128 : S_.BroadcastsInDim S388x128 (![] : Fin 0 → Fin S388x128.rank)
  reducesTo_S388x128_S_d0_1 : S388x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg10 : FVec F S128 .f32) (main_arg11 : FVec F S128x128 .f32) (main_arg12 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg7 : FVec F S128x128 .f32) (main_arg8 : FVec F S128 .f32) (main_arg9 : FVec F S256x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg9
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg10 main_arg11 main_arg12 main_v33

def fn {F : FTy → Type} [FloatOps F] (main_arg0 : FVec F S100000x128 .f32) (main_arg1 : IVec S500000 32) (main_arg2 : IVec S500000 32) (main_arg3 : IVec S500000 32) (main_arg4 : FVec F S500000x4 .f32) (main_arg5 : FVec F S388x128 .f32) (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x4 .f32 := Host.absf main_arg4
  let main_cst_0 : FVec F S_ .f32 := constant S_ .f32 0x7F800000#32
  let main_v5 : FVec F S500000x4 .f32 := broadcastInDim S500000x4 ![] bcast_S_S500000x4 main_cst_0
  let main_v6 : IVec S500000x4 1 := cmpf .olt main_v4 main_v5
  let main_c_1 : IVec S_ 1 := constantI S_ 1 1#1
  let main_v7 : IVec S_ 1 := (fun x v => Host.reduce IntOp.andi x v reducesTo_S500000x4_S_d0_1 h_S_) main_v6 main_c_1
  let main_v8 : IVec S_ 1 := andi main_v3 main_v7
  let main_v9 : FVec F S388x128 .f32 := Host.absf main_arg5
  let main_cst_2 : FVec F S_ .f32 := constant S_ .f32 0x7F800000#32
  let main_v10 : FVec F S388x128 .f32 := broadcastInDim S388x128 ![] bcast_S_S388x128 main_cst_2
  let main_v11 : IVec S388x128 1 := cmpf .olt main_v9 main_v10
  let main_c_3 : IVec S_ 1 := constantI S_ 1 1#1
  let main_v12 : IVec S_ 1 := (fun x v => Host.reduce IntOp.andi x v reducesTo_S388x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S100000x128 : Shape := ⟨2, ![100000, 128]⟩
abbrev S500000 : Shape := ⟨1, ![500000]⟩
abbrev S500000x4 : Shape := ⟨2, ![500000, 4]⟩
abbrev S388x128 : Shape := ⟨2, ![388, 128]⟩
abbrev S128 : Shape := ⟨1, ![128]⟩
abbrev S128x128 : Shape := ⟨2, ![128, 128]⟩
abbrev S256x128 : Shape := ⟨2, ![256, 128]⟩
abbrev S4x128 : Shape := ⟨2, ![4, 128]⟩
abbrev S_ : Shape := ⟨0, ![]⟩
abbrev S500000x1 : Shape := ⟨2, ![500000, 1]⟩
abbrev S500000x128 : Shape := ⟨2, ![500000, 128]⟩
abbrev S4000x128 : Shape := ⟨2, ![4000, 128]⟩
abbrev S4000x4 : Shape := ⟨2, ![4000, 4]⟩
abbrev S1x128 : Shape := ⟨2, ![1, 128]⟩
abbrev S5000x128 : Shape := ⟨2, ![5000, 128]⟩

abbrev nBuf : Space → Nat
  | .hbm => 52
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000x4, .f32⟩
  | .hbm, ⟨5, _⟩ => ⟨S388x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S4x128, .f32⟩
  | .hbm, ⟨17, _⟩ => ⟨S128x128, .f32⟩
  | .hbm, ⟨18, _⟩ => ⟨S128x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000x128, .f32⟩
  | .hbm, ⟨46, _⟩ => ⟨S500000x128, .f32⟩
  | .hbm, ⟨47, _⟩ => ⟨S_, .f32⟩
  | .hbm, ⟨48, _⟩ => ⟨S100000x128, .f32⟩
  | .hbm, ⟨49, _⟩ => ⟨S500000x1, .i32⟩
  | .hbm, ⟨50, _⟩ => ⟨S100000x128, .f32⟩
  | .hbm, ⟨51, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x4, .f32⟩
  | .local _ .vmem, ⟨7, _⟩ => ⟨S4000x4, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S4x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S4000x128, .f32⟩
  | .local _ .vmem, ⟨16, _⟩ => ⟨S4000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S388x128_S128x128_0_0 : S388x128.Slices ![0, 0] S128x128
  slices_S388x128_S128x128_128_0 : S388x128.Slices ![128, 0] S128x128
  slices_S388x128_S128x128_256_0 : S388x128.Slices ![256, 0] S128x128
  slices_S388x128_S4x128_384_0 : S388x128.Slices ![384, 0] S4x128
  slices_S256x128_S128x128_0_0 : S256x128.Slices ![0, 0] S128x128
  slices_S256x128_S128x128_128_0 : S256x128.Slices ![128, 0] S128x128
  bcast_S_S500000 : S_.BroadcastsInDim S500000 (![] : Fin 0 → Fin S500000.rank)
  bcast_S500000_S500000x1_0 : S500000.BroadcastsInDim S500000x1 (![0] : Fin 1 → Fin S500000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x4_S4000x4_0_0 : ∀ a, (![0, 0] : Fin 2 → Nat) a + S4000x4.size a ≤ S4000x4.size a
  h_S4000x4 : 0 < S4000x4.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S100000x128_S500000x1_S500000x128_1_0_n_n_0_1_1128_wf : GatherDims.WF S100000x128 S500000x1 S500000x128 [1] [0] [] [0] [] 1 ![1, 128]
  dot_S4000x128_S128x128_S4000x128_1_0_0_1_n_n_wf : DotDims.WF S4000x128 S128x128 S4000x128 [1] [0] [0] [1] [] []
  dot_S4000x4_S4x128_S4000x128_1_0_0_1_n_n_wf : DotDims.WF S4000x4 S4x128 S4000x128 [1] [0] [0] [1] [] []
  scatter_S100000x128_S500000x1_S500000x128_1_0_0_1_wf : ScatterDims.WF S100000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .f32 = 32 ∨ (Rect.block (s := S500000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x4.size a ≤ S500000x4.size a
  hwx0_3 : ∀ i : grid0.Coords, EltTy.bits .f32 = 32 ∨ (Rect.block (s := S500000x4) S4000x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128.size a ≤ S4x128.size a
  hwx0_7 : ∀ i : grid0.Coords, EltTy.bits .f32 = 32 ∨ (Rect.block (s := S4x128) S4x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S500000x128.size a
  hwx0_11 : ∀ i : grid0.Coords, EltTy.bits .f32 = 32 ∨ (Rect.block (s := S500000x128) S4000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x4_S4x128_S4000x128_1_0_0_1_n_n : DotDims S4000x4 S4x128 S4000x128 where
  lhsContracting := [1]
  rhsContracting := [0]
  lhsNonContracting := [0]
  rhsNonContracting := [1]
  lhsBatch := []
  rhsBatch := []
  wf := dot_S4000x4_S4x128_S4000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S4x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S500000 : Shape := ⟨1, ![500000]⟩
abbrev S500000x4 : Shape := ⟨2, ![500000, 4]⟩
abbrev S388x128 : Shape := ⟨2, ![388, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S500000x1 : Shape := ⟨2, ![500000, 1]⟩
abbrev S500000x128 : Shape := ⟨2, ![500000, 128]⟩
abbrev S500000x388 : Shape := ⟨2, ![500000, 388]⟩
abbrev S1x128 : Shape := ⟨2, ![1, 128]⟩
abbrev S100000x256 : Shape := ⟨2, ![100000, 256]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000x4, .f32⟩
  | .hbm, ⟨5, _⟩ => ⟨S388x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x128, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x128, .f32⟩
  | .hbm, ⟨40, _⟩ => ⟨S500000x388, .f32⟩
  | .hbm, ⟨41, _⟩ => ⟨S500000x128, .f32⟩
  | .hbm, ⟨42, _⟩ => ⟨S1x128, .f32⟩
  | .hbm, ⟨43, _⟩ => ⟨S500000x128, .f32⟩
  | .hbm, ⟨44, _⟩ => ⟨S500000x128, .f32⟩
  | .hbm, ⟨45, _⟩ => ⟨S500000x128, .f32⟩
  | .hbm, ⟨46, _⟩ => ⟨S500000x128, .f32⟩
  | .hbm, ⟨47, _⟩ => ⟨S_, .f32⟩
  | .hbm, ⟨48, _⟩ => ⟨S500000x128, .f32⟩
  | .hbm, ⟨49, _⟩ => ⟨S500000x128, .f32⟩
  | .hbm, ⟨50, _⟩ => ⟨S_, .f32⟩
  | .hbm, ⟨51, _⟩ => ⟨S500000x128, .f32⟩
  | .hbm, ⟨52, _⟩ => ⟨S500000x128, .f32⟩
  | .hbm, ⟨53, _⟩ => ⟨S500000x128, .f32⟩
  | .hbm, ⟨54, _⟩ => ⟨S500000x128, .f32⟩
  | .hbm, ⟨55, _⟩ => ⟨S1x128, .f32⟩
  | .hbm, ⟨56, _⟩ => ⟨S500000x128, .f32⟩
  | .hbm, ⟨57, _⟩ => ⟨S500000x128, .f32⟩
  | .hbm, ⟨58, _⟩ => ⟨S_, .f32⟩
  | .hbm, ⟨59, _⟩ => ⟨S100000x128, .f32⟩
  | .hbm, ⟨60, _⟩ => ⟨S500000x1, .i32⟩
  | .hbm, ⟨61, _⟩ => ⟨S100000x128, .f32⟩
  | .hbm, ⟨62, _⟩ => ⟨S100000x256, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x4_S500000x388_d1 : Shape.Concatenates [S500000x128, S500000x128, S500000x128, S500000x4] S500000x388 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S500000x388_S388x128_S500000x128_1_0_0_1_n_n_wf : DotDims.WF S500000x388 S388x128 S500000x128 [1] [0] [0] [1] [] []
  dot_S500000x128_S128x128_S500000x128_1_0_0_1_n_n_wf : DotDims.WF S500000x128 S128x128 S500000x128 [1] [0] [0] [1] [] []
  scatter_S100000x128_S500000x1_S500000x128_1_0_0_1_wf : ScatterDims.WF S100000x128 S500000x1 S500000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x388_S388x128_S500000x128_1_0_0_1_n_n : DotDims S500000x388 S388x128 S500000x128 where
  lhsContracting := [1]
  rhsContracting := [0]
  lhsNonContracting := [0]
  rhsNonContracting := [1]
  lhsBatch := []
  rhsBatch := []
  wf := dot_S500000x388_S388x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMlp.lean ====
/-
  General facts for reading a small multi-layer perceptron at the extended reals.

  * `ofBits_one_f32`: the f32 word 0x3F800000 denotes the real number one.
  * `silu`: the function x ↦ x · σ(x), σ the logistic function 1 / (1 + e⁻ˣ) with its limits 0 and 1 at −∞ and +∞.
    A kernel's `mulf x (logistic x)` and a host program's expansion x · (1 / (1 + exp (−x))) both denote it.
  * `sum_fin_add`: a sum over `Fin (n + m)` is the sum over the first `n` indices plus the sum over the last `m`;
    this holds in any additive commutative monoid, so on the extended reals it needs no finiteness.
  * `matmul_zero_ix2`: a matrix product [M,K] × [K,N] into a zero accumulator, read at the entry (p, q), is
    ∑ₖ lhs[p,k] · rhs[k,q], for any dimension record that contracts axis 1 of the left with axis 0 of the right
    (the four axis facts are hypotheses, so one record's facts instantiate it).
  * `bias_row_apply`: a length-n vector viewed as one row [1,n] and repeated over `a` rows reads, at (p, q), entry q.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MlpLib

/-- The f32 word of 1.0 denotes the real number one. -/
theorem ofBits_one_f32 : Ideal.ofBits .f32 0x3F800000#32 = (1 : EReal) := by
  simp [Ideal.ofBits, Ideal.ieee, -EReal.coe_mul]; norm_num

/-- x · σ(x) on the extended reals. -/
def silu (x : EReal) : EReal := x * Ideal.logistic x

/-- A kernel's product of a value with its logistic is `silu`. -/
theorem silu_kernel (x : Ideal .f32) : FloatOps.mulf x (FloatOps.logistic x) = silu x := rfl

/-- A host program's x · (1 / (1 + exp (−x))), the ones given as the f32 word of 1.0, is `silu`. -/
theorem silu_host (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = silu x := by
  show x * Ideal.div (Ideal.ofBits .f32 0x3F800000#32) (Ideal.ofBits .f32 0x3F800000#32 + Ideal.exp (-x)) = x * Ideal.div 1 (1 + Ideal.exp (-x))
  rw [ofBits_one_f32]

/-- A sum over `Fin (n + m)` splits at `n`. -/
theorem sum_fin_add {M : Type*} [AddCommMonoid M] (n m : ℕ) (f : Fin (n + m) → M) :
    ∑ k, f k = (∑ a : Fin n, f ⟨a.val, Nat.lt_add_right m a.isLt⟩) + ∑ a : Fin m, f ⟨n + a.val, Nat.add_lt_add_left a.isLt n⟩ :=
  Fin.sum_univ_add f

/-- A [M,K] × [K,N] product into a zero accumulator at the entry (p, q): the sum over the contracted index. -/
theorem matmul_zero_ix2 {M K N : ℕ} {φ₁ φ₂ : FTy}
    (d : DotDims (⟨2, ![M, K]⟩ : Shape) (⟨2, ![K, N]⟩ : Shape) (⟨2, ![M, N]⟩ : Shape))
    (hr : d.contr.rank = 1) (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (prec : Option ContractPrecision) (lhs : FVec Ideal (⟨2, ![M, K]⟩ : Shape) φ₁) (rhs : FVec Ideal (⟨2, ![K, N]⟩ : Shape) φ₂)
    (p : Fin M) (q : Fin N) :
    matmul d prec lhs rhs (constant (⟨2, ![M, N]⟩ : Shape) .f32 0x00000000#32) (ix2 p q)
      = ∑ k : Fin K, lhs (ix2 p k) * rhs (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A length-n vector as one row, repeated over `a` rows, read at (p, q): its entry q. -/
theorem bias_row_apply {α : Type} {a n : ℕ} (v : (⟨1, ![n]⟩ : Shape).Idx → α)
    (h₁ : (⟨1, ![n]⟩ : Shape).ShapeCasts ⟨2, ![1, n]⟩) (h₂ : (⟨2, ![1, n]⟩ : Shape).Broadcasts ⟨2, ![a, n]⟩)
    (p : Fin a) (q : Fin n) :
    broadcastTo (⟨2, ![a, n]⟩ : Shape) (shapeCast (⟨2, ![1, n]⟩ : Shape) v h₁) h₂ (ix2 p q) = v (ix1 q) := by
  rw [broadcastTo_1b_ab_apply, shapeCast_a_1a_apply]

end Cert.MlpLib

end
-- ==== Proof.Spec.lean ====
/-
  The two perceptrons of the message-passing update, each as ONE function of its operand arrays, entry by entry, on the
  extended reals. Rows are independent, so each function is stated for any number of rows `R`: the same definition
  describes a block of rows and the whole array.

  psi (the triplet message): for row r and output column j,
      pre[r,k] = (((A[r,:]·Wa[:,k] + B[r,:]·Wb[:,k]) + C[r,:]·Wc[:,k]) + G[r,:]·Wg[:,k]) + b1[k]
      out[r,j] = (∑ₖ silu(pre[r,k]) · W2[k,j]) + b2[j]
  where A, B, C are the three gathered endpoint rows (128 wide), G the 4 geometric features, and Wa, Wb, Wc, Wg the row
  blocks 0–127, 128–255, 256–383, 384–387 of the first-layer weights.

  phi (the residual update): for row r and column j,
      pre[r,k] = (X[r,:]·Wh[:,k] + S[r,:]·Wagg[:,k]) + b1[k]
      out[r,j] = X[r,j] + ((∑ₖ silu(pre[r,k]) · W2[k,j]) + b2[j])
  where X is the pair state, S the aggregated messages, Wh and Wagg the two row blocks of the first-layer weights.
-/
import proofs.«123935_j12051678233185_1_alg».proof.Proof.LibMlp

noncomputable section

open Idealize.ShloMosaic Idealize.ShloMosaic.ValueIdx Cert.MlpLib

namespace Cert.Spec

/-- A matrix of extended reals with `r` rows and `c` columns. -/
abbrev Mat (r c : ℕ) : Type := (⟨2, ![r, c]⟩ : Shape).Idx → EReal
/-- A vector of extended reals of length `n`. -/
abbrev Row (n : ℕ) : Type := (⟨1, ![n]⟩ : Shape).Idx → EReal

/-- psi's first layer before the activation, at row `r` and hidden unit `k`: four partial products and the bias. -/
def psiPre {R : ℕ} (A B C : Mat R 128) (G : Mat R 4) (Wa Wb Wc : Mat 128 128) (Wg : Mat 4 128) (b1 : Row 128)
    (r : Fin R) (k : Fin 128) : EReal :=
  ((((∑ a : Fin 128, A (ix2 r a) * Wa (ix2 a k)) + ∑ a : Fin 128, B (ix2 r a) * Wb (ix2 a k))
      + ∑ a : Fin 128, C (ix2 r a) * Wc (ix2 a k)) + ∑ a : Fin 4, G (ix2 r a) * Wg (ix2 a k)) + b1 (ix1 k)

/-- psi's output. -/
def psiOut {R : ℕ} (A B C : Mat R 128) (G : Mat R 4) (Wa Wb Wc : Mat 128 128) (Wg : Mat 4 128) (b1 : Row 128)
    (W2 : Mat 128 128) (b2 : Row 128) : Mat R 128 := fun i =>
  (∑ k : Fin 128, silu (psiPre A B C G Wa Wb Wc Wg b1 (i 0) k) * W2 (ix2 k (i 1))) + b2 (ix1 (i 1))

/-- phi's first layer before the activation, at row `r` and hidden unit `k`: two partial products and the bias. -/
def phiPre {R : ℕ} (X S : Mat R 128) (Wh Wagg : Mat 128 128) (b1 : Row 128) (r : Fin R) (k : Fin 128) : EReal :=
  ((∑ a : Fin 128, X (ix2 r a) * Wh (ix2 a k)) + ∑ a : Fin 128, S (ix2 r a) * Wagg (ix2 a k)) + b1 (ix1 k)

/-- phi's output: the state plus its update. -/
def phiOut {R : ℕ} (X S : Mat R 128) (Wh Wagg : Mat 128 128) (b1 : Row 128) (W2 : Mat 128 128) (b2 : Row 128) :
    Mat R 128 := fun i =>
  X i + ((∑ k : Fin 128, silu (phiPre X S Wh Wagg b1 (i 0) k) * W2 (ix2 k (i 1))) + b2 (ix1 (i 1)))

/-- Rows are independent: psi's output at an entry `j` of one set of operands equals its output at an entry `i` of another
    set whenever the two entries are in the same column, the three endpoint rows and the feature row of `j` are those of
    `i`, and the weights and biases agree. (A block of rows of the operands gives those rows of the output.) -/
theorem psiOut_rows {R n : ℕ} (A B C : Mat R 128) (G : Mat R 4) (Wa Wb Wc : Mat 128 128) (Wg : Mat 4 128)
    (b1 : Row 128) (W2 : Mat 128 128) (b2 : Row 128)
    (x0 x1 x2 : Mat n 128) (x3 : Mat n 4) (x4 x5 x6 : Mat 128 128) (x7 : Mat 4 128) (x8 : Row 128) (x9 : Mat 128 128)
    (x10 : Row 128)
    (j : (⟨2, ![n, 128]⟩ : Shape).Idx) (i : (⟨2, ![R, 128]⟩ : Shape).Idx) (hq : (i 1).val = (j 1).val)
    (h0 : ∀ a : Fin 128, x0 (ix2 (j 0) a) = A (ix2 (i 0) a)) (h1 : ∀ a : Fin 128, x1 (ix2 (j 0) a) = B (ix2 (i 0) a))
    (h2 : ∀ a : Fin 128, x2 (ix2 (j 0) a) = C (ix2 (i 0) a)) (h3 : ∀ a : Fin 4, x3 (ix2 (j 0) a) = G (ix2 (i 0) a))
    (h4 : x4 = Wa) (h5 : x5 = Wb) (h6 : x6 = Wc) (h7 : x7 = Wg) (h8 : x8 = b1) (h9 : x9 = W2) (h10 : x10 = b2) :
    psiOut x0 x1 x2 x3 x4 x5 x6 x7 x8 x9 x10 j = psiOut A B C G Wa Wb Wc Wg b1 W2 b2 i := by
  subst h4 h5 h6 h7 h8 h9 h10
  have e : (i 1 : Fin 128) = (j 1 : Fin 128) := Fin.ext hq
  show (∑ k : Fin 128, silu (psiPre x0 x1 x2 x3 x4 x5 x6 x7 x8 (j 0) k) * x9 (ix2 k (j 1))) + x10 (ix1 (j 1))
     = (∑ k : Fin 128, silu (psiPre A B C G x4 x5 x6 x7 x8 (i 0) k) * x9 (ix2 k (i 1))) + x10 (ix1 (i 1))
  rw [e]
  simp only [psiPre, h0, h1, h2, h3]

/-- The same for phi: the state row and the aggregated row of `j` are those of `i`. -/
theorem phiOut_rows {R n : ℕ} (X S : Mat R 128) (Wh Wagg : Mat 128 128) (b1 : Row 128) (W2 : Mat 128 128) (b2 : Row 128)
    (x0 x1 : Mat n 128) (x2 x3 : Mat 128 128) (x4 : Row 128) (x5 : Mat 128 128) (x6 : Row 128)
    (j : (⟨2, ![n, 128]⟩ : Shape).Idx) (i : (⟨2, ![R, 128]⟩ : Shape).Idx) (hq : (i 1).val = (j 1).val)
    (hx : x0 j = X i)
    (h0 : ∀ a : Fin 128, x0 (ix2 (j 0) a) = X (ix2 (i 0) a)) (h1 : ∀ a : Fin 128, x1 (ix2 (j 0) a) = S (ix2 (i 0) a))
    (h2 : x2 = Wh) (h3 : x3 = Wagg) (h4 : x4 = b1) (h5 : x5 = W2) (h6 : x6 = b2) :
    phiOut x0 x1 x2 x3 x4 x5 x6 j = phiOut X S Wh Wagg b1 W2 b2 i := by
  subst h2 h3 h4 h5 h6
  have e : (i 1 : Fin 128) = (j 1 : Fin 128) := Fin.ext hq
  show x0 j + ((∑ k : Fin 128, silu (phiPre x0 x1 x2 x3 x4 (j 0) k) * x5 (ix2 k (j 1))) + x6 (ix1 (j 1)))
     = X i + ((∑ k : Fin 128, silu (phiPre X S x2 x3 x4 (i 0) k) * x5 (ix2 k (i 1))) + x6 (ix1 (i 1)))
  rw [e, hx]
  simp only [phiPre, h0, h1]

end Cert.Spec

end
-- ==== Proof.PsiValue.lean ====
/-
  Region 0 (the triplet-message perceptron) as a value: what its output array holds after the region, as one function of
  the arrays the region is entered with.

  The body makes ONE store of the whole 4000 × 128 output block. Its payload is, entry by entry,
      (∑ₖ silu(pre[p,k]) · W2[k,q]) + b2[q],   pre[p,k] = (((A·Wa + B·Wb) + C·Wc) + G·Wg)[p,k] + b1[k],
  four matrix products into zero accumulators added in the order written, the bias repeated over the rows, the
  logistic activation times its argument, a second product and bias; every change of float format is the identity on the
  extended reals. That is `psiOut` of the eleven input blocks (`block_eq`).

  Grid point t stages rows 4000·t … 4000·t + 3999 of the four row-tiled operands and of the output, and the weights and
  biases whole. Rows are independent, so what point t writes back is rows 4000·t … of `psiOut` of the whole arrays
  (`flushed_eq`); the 125 blocks tile the 500000 rows (`cover`: row r lies in block r / 4000), so the array ends at
  `psiOut` of the whole arrays (`final`).
-/
import proofs.«123935_j12051678233185_1_alg».proof.Proof.Gen.KernelIdeal.Frame
import proofs.«123935_j12051678233185_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)
open Cert.MlpLib Cert.Spec

namespace Cert.KernelIdeal.Psi

open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-! ## The two matrix products of the body, read at an entry -/

theorem lhs_w_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_w_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_w_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_w_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem lhs_g_0 (i : S4000x128.Idx) (q : dot_S4000x4_S4x128_S4000x128_1_0_0_1_n_n.contr.Idx) :
    (dot_S4000x4_S4x128_S4000x128_1_0_0_1_n_n.lhsIdx i q 0).val = (i 0).val := by
  unfold DotDims.lhsIdx
  rw [dif_neg (show ¬(0 : Fin S4000x4.rank) ∈ dot_S4000x4_S4x128_S4000x128_1_0_0_1_n_n.lhsBatch by decide), dif_pos (show (0 : Fin S4000x4.rank) ∈ dot_S4000x4_S4x128_S4000x128_1_0_0_1_n_n.lhsNonContracting by decide)]
  rfl
theorem lhs_g_1 (i : S4000x128.Idx) (q : dot_S4000x4_S4x128_S4000x128_1_0_0_1_n_n.contr.Idx) :
    (dot_S4000x4_S4x128_S4000x128_1_0_0_1_n_n.lhsIdx i q 1).val = (q ⟨0, by decide⟩).val :=
  dot_S4000x4_S4x128_S4000x128_1_0_0_1_n_n.lhsIdx_val_of_single rfl i q
theorem rhs_g_0 (i : S4000x128.Idx) (q : dot_S4000x4_S4x128_S4000x128_1_0_0_1_n_n.contr.Idx) :
    (dot_S4000x4_S4x128_S4000x128_1_0_0_1_n_n.rhsIdx i q 0).val = (q ⟨0, by decide⟩).val :=
  dot_S4000x4_S4x128_S4000x128_1_0_0_1_n_n.rhsIdx_val_of_single rfl i q
theorem rhs_g_1 (i : S4000x128.Idx) (q : dot_S4000x4_S4x128_S4000x128_1_0_0_1_n_n.contr.Idx) :
    (dot_S4000x4_S4x128_S4000x128_1_0_0_1_n_n.rhsIdx i q 1).val = (i 1).val := by
  unfold DotDims.rhsIdx
  rw [dif_neg (show ¬(1 : Fin S4x128.rank) ∈ dot_S4000x4_S4x128_S4000x128_1_0_0_1_n_n.rhsBatch by decide), dif_pos (show (1 : Fin S4x128.rank) ∈ dot_S4000x4_S4x128_S4000x128_1_0_0_1_n_n.rhsNonContracting by decide)]
  rfl

/-- A 4000 × 128 by 128 × 128 product into a zero accumulator at (p, q). -/
theorem mm_w {φ₁ φ₂ : FTy} (lhs : FVec Ideal S4000x128 φ₁) (rhs : FVec Ideal S128x128 φ₂) (p : Fin 4000) (q : Fin 128) :
    matmul dot_S4000x128_S128x128_S4000x128_1_0_0_1_n_n none lhs rhs (constant S4000x128 .f32 0x00000000#32) (ix2 p q)
      = ∑ k : Fin 128, lhs (ix2 p k) * rhs (ix2 k q) :=
  matmul_zero_ix2 dot_S4000x128_S128x128_S4000x128_1_0_0_1_n_n rfl rfl lhs_w_0 lhs_w_1 rhs_w_0 rhs_w_1 none lhs rhs p q

/-- A 4000 × 4 by 4 × 128 product into a zero accumulator at (p, q). -/
theorem mm_g {φ₁ φ₂ : FTy} (lhs : FVec Ideal S4000x4 φ₁) (rhs : FVec Ideal S4x128 φ₂) (p : Fin 4000) (q : Fin 128) :
    matmul dot_S4000x4_S4x128_S4000x128_1_0_0_1_n_n none lhs rhs (constant S4000x128 .f32 0x00000000#32) (ix2 p q)
      = ∑ k : Fin 4, lhs (ix2 p k) * rhs (ix2 k q) :=
  matmul_zero_ix2 dot_S4000x4_S4x128_S4000x128_1_0_0_1_n_n rfl rfl lhs_g_0 lhs_g_1 rhs_g_0 rhs_g_1 none lhs rhs p q

theorem logistic_apply {s : Shape} {φ : FTy} (x : FVec Ideal s φ) (i : s.Idx) : logistic x i = Ideal.logistic (x i) := rfl

/-! ## The body's payloads at an entry -/

/-- The hidden activations: `silu` of the first layer's pre-activation. -/
theorem pay2_apply (x0 x1 x2 : Vec Ideal S4000x128 .f32) (x3 : Vec Ideal S4000x4 .f32) (x4 x5 x6 : Vec Ideal S128x128 .f32)
    (x7 : Vec Ideal S4x128 .f32) (x8 : Vec Ideal S128 .f32) (p : Fin 4000) (k : Fin 128) :
    k0_pay2 (F := Ideal) x0 x1 x2 x3 x4 x5 x6 x7 x8 (ix2 p k) = silu (psiPre x0 x1 x2 x3 x4 x5 x6 x7 x8 p k) := by
  unfold k0_pay2
  simp only [shapeCast_self, truncf_apply, mulf_apply, addf_apply, logistic_apply]
  rw [mm_w, mm_w, mm_w, mm_g, bias_row_apply]
  simp only [truncf_apply]
  rfl

/-- The stored value: the second layer over the hidden activations, plus its bias. -/
theorem pay1_apply (h : FVec Ideal S4000x128 .bf16) (x9 : Vec Ideal S128x128 .f32) (x10 : Vec Ideal S128 .f32)
    (p : Fin 4000) (q : Fin 128) :
    k0_pay1 (F := Ideal) h x9 x10 (ix2 p q) = (∑ k : Fin 128, h (ix2 p k) * x9 (ix2 k q)) + x10 (ix1 q) := by
  unfold k0_pay1
  simp only [addf_apply]
  rw [mm_w, bias_row_apply]
  simp only [truncf_apply]

/-- The output block the body leaves is `psiOut` of the eleven input blocks. -/
theorem block_eq (x0 x1 x2 : Vec Ideal S4000x128 .f32) (x3 : Vec Ideal S4000x4 .f32) (x4 x5 x6 : Vec Ideal S128x128 .f32)
    (x7 : Vec Ideal S4x128 .f32) (x8 : Vec Ideal S128 .f32) (x9 : Vec Ideal S128x128 .f32) (x10 : Vec Ideal S128 .f32) :
    out0_11 (F := Ideal) x0 x1 x2 x3 x4 x5 x6 x7 x8 x9 x10 = psiOut x0 x1 x2 x3 x4 x5 x6 x7 x8 x9 x10 := by
  unfold out0_11
  rw [View.canon_unit_zero hz2]
  simp only [View.ld_unit_zero (S := S4000x128) hz2, View.ld_unit_zero (S := S4000x4) hz2,
    View.ld_unit_zero (S := S128x128) hz2, View.ld_unit_zero (S := S4x128) hz2, View.ld_unit_zero (S := S128) hz1]
  funext i
  obtain ⟨p, q, rfl⟩ : ∃ (p : Fin 4000) (q : Fin 128), i = ix2 p q := ⟨i 0, i 1, eq_ix2 i⟩
  rw [pay1_apply]
  simp only [pay2_apply]
  rfl

/-! ## From blocks to the array, at any entry contents `V` of the region -/

variable (V : (c : Dev nD) → (b : Ref sig .tc) → Buf (Elt Ideal) ((c : Thread nD τ).loc b))

/-- What the region's output array ends holding: `psiOut` of the arrays it is entered with. -/
abbrev arr (c : Dev nD) : S500000x128.Idx → EReal :=
  psiOut (R := 500000) (V c main_v12) (V c main_v19) (V c main_v26) (V c main_arg4) (V c main_v0) (V c main_v1)
    (V c main_v2) (V c main_v3) (V c main_arg6) (V c main_arg7) (V c main_arg8)

/-- The printed index maps over the grid: the row-tiled windows sit at block (t, 0), the others at block zero. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = t.val ∧ win0_11.index t (1 : Fin 2) = 0) :=
  (by decide +kernel : ∀ t : Fin grid0.N, _)

/-- WHAT POINT `t` WRITES BACK is block `t` of `arr`. -/
theorem flushed_eq (c : Dev nD) (t : Fin cfg0.N) :
    (dat0 V c).flushed 11 t = ((cfg0.win 11).blk t).view.read (Elt Ideal) (arr V c) := by
  show (cfg0.win 11).cut (grid0.coords t) ((dat0 V c).after 11 t) = _
  rw [after0_11, block_eq]
  obtain ⟨⟨a0, b0⟩, ⟨a1, b1⟩, ⟨a2, b2⟩, ⟨a3, b3⟩, ⟨a4, b4⟩, ⟨a5, b5⟩, ⟨a6, b6⟩, ⟨a7, b7⟩, a8, ⟨a9, b9⟩, a10, ⟨a11, b11⟩⟩ := idx_facts t
  funext j
  have hj0 : (j 0).val < 4000 := (j 0).isLt
  have hj1 : (j 1).val < 128 := (j 1).isLt
  refine psiOut_rows (R := 500000) (n := 4000) (V c main_v12) (V c main_v19) (V c main_v26) (V c main_arg4) (V c main_v0)
    (V c main_v1) (V c main_v2) (V c main_v3) (V c main_arg6) (V c main_arg7) (V c main_arg8)
    (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) j (((cfg0.win 11).blk t).view.emb j)
    ?_ ?_ ?_ ?_ ?_ ?_ ?_ ?_ ?_ ?_ ?_ ?_
  · show win0_11.index t (1 : Fin 2) * 128 + 1 * (j 1).val = (j 1).val
    omega
  · intro a
    show V c main_v12 (((cfg0.win 0).blk t).view.emb (ix2 (j 0) a)) = V c main_v12 (ix2 ((((cfg0.win 11).blk t).view.emb j) 0) a)
    refine congrArg (V c main_v12) (funext fun ax => Fin.ext ?_)
    match ax with
    | ⟨0, _⟩ => show win0_0.index t (0 : Fin 2) * 4000 + 1 * (j 0).val = win0_11.index t (0 : Fin 2) * 4000 + 1 * (j 0).val; omega
    | ⟨1, _⟩ => show win0_0.index t (1 : Fin 2) * 128 + 1 * a.val = a.val; omega
  · intro a
    show V c main_v19 (((cfg0.win 1).blk t).view.emb (ix2 (j 0) a)) = V c main_v19 (ix2 ((((cfg0.win 11).blk t).view.emb j) 0) a)
    refine congrArg (V c main_v19) (funext fun ax => Fin.ext ?_)
    match ax with
    | ⟨0, _⟩ => show win0_1.index t (0 : Fin 2) * 4000 + 1 * (j 0).val = win0_11.index t (0 : Fin 2) * 4000 + 1 * (j 0).val; omega
    | ⟨1, _⟩ => show win0_1.index t (1 : Fin 2) * 128 + 1 * a.val = a.val; omega
  · intro a
    show V c main_v26 (((cfg0.win 2).blk t).view.emb (ix2 (j 0) a)) = V c main_v26 (ix2 ((((cfg0.win 11).blk t).view.emb j) 0) a)
    refine congrArg (V c main_v26) (funext fun ax => Fin.ext ?_)
    match ax with
    | ⟨0, _⟩ => show win0_2.index t (0 : Fin 2) * 4000 + 1 * (j 0).val = win0_11.index t (0 : Fin 2) * 4000 + 1 * (j 0).val; omega
    | ⟨1, _⟩ => show win0_2.index t (1 : Fin 2) * 128 + 1 * a.val = a.val; omega
  · intro a
    show V c main_arg4 (((cfg0.win 3).blk t).view.emb (ix2 (j 0) a)) = V c main_arg4 (ix2 ((((cfg0.win 11).blk t).view.emb j) 0) a)
    refine congrArg (V c main_arg4) (funext fun ax => Fin.ext ?_)
    match ax with
    | ⟨0, _⟩ => show win0_3.index t (0 : Fin 2) * 4000 + 1 * (j 0).val = win0_11.index t (0 : Fin 2) * 4000 + 1 * (j 0).val; omega
    | ⟨1, _⟩ => show win0_3.index t (1 : Fin 2) * 4 + 1 * a.val = a.val; omega
  · funext y
    show V c main_v0 (((cfg0.win 4).blk t).view.emb y) = V c main_v0 y
    refine congrArg (V c main_v0) (funext fun ax => Fin.ext ?_)
    match ax with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v1 (((cfg0.win 5).blk t).view.emb y) = V c main_v1 y
    refine congrArg (V c main_v1) (funext fun ax => Fin.ext ?_)
    match ax with
    | ⟨0, _⟩ => show win0_5.index t (0 : Fin 2) * 128 + 1 * (y 0).val = (y 0).val; omega
    | ⟨1, _⟩ => show win0_5.index t (1 : Fin 2) * 128 + 1 * (y 1).val = (y 1).val; omega
  · funext y
    show V c main_v2 (((cfg0.win 6).blk t).view.emb y) = V c main_v2 y
    refine congrArg (V c main_v2) (funext fun ax => Fin.ext ?_)
    match ax with
    | ⟨0, _⟩ => show win0_6.index t (0 : Fin 2) * 128 + 1 * (y 0).val = (y 0).val; omega
    | ⟨1, _⟩ => show win0_6.index t (1 : Fin 2) * 128 + 1 * (y 1).val = (y 1).val; omega
  · funext y
    show V c main_v3 (((cfg0.win 7).blk t).view.emb y) = V c main_v3 y
    refine congrArg (V c main_v3) (funext fun ax => Fin.ext ?_)
    match ax with
    | ⟨0, _⟩ => show win0_7.index t (0 : Fin 2) * 4 + 1 * (y 0).val = (y 0).val; omega
    | ⟨1, _⟩ => show win0_7.index t (1 : Fin 2) * 128 + 1 * (y 1).val = (y 1).val; omega
  · funext y
    show V c main_arg6 (((cfg0.win 8).blk t).view.emb y) = V c main_arg6 y
    refine congrArg (V c main_arg6) (funext fun ax => Fin.ext ?_)
    match ax with
    | ⟨0, _⟩ => show win0_8.index t (0 : Fin 1) * 128 + 1 * (y 0).val = (y 0).val; omega
  · funext y
    show V c main_arg7 (((cfg0.win 9).blk t).view.emb y) = V c main_arg7 y
    refine congrArg (V c main_arg7) (funext fun ax => Fin.ext ?_)
    match ax with
    | ⟨0, _⟩ => show win0_9.index t (0 : Fin 2) * 128 + 1 * (y 0).val = (y 0).val; omega
    | ⟨1, _⟩ => show win0_9.index t (1 : Fin 2) * 128 + 1 * (y 1).val = (y 1).val; omega
  · funext y
    show V c main_arg8 (((cfg0.win 10).blk t).view.emb y) = V c main_arg8 y
    refine congrArg (V c main_arg8) (funext fun ax => Fin.ext ?_)
    match ax with
    | ⟨0, _⟩ => show win0_10.index t (0 : Fin 1) * 128 + 1 * (y 0).val = (y 0).val; omega

/-- An index of the array is in point `t`'s block iff each coordinate is in the block's range on its axis. -/
theorem mem_blk (t : Fin cfg0.N) (i : S500000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v27).slice (win0_11.rect t)).set ↔ _
  rw [View.set_slice_whole, Rect.mem_set_unit]
  exact Iff.rfl

/-- Every row lies in some point's block: row r in block r / 4000. -/
theorem cover (i : S500000x128.Idx) :
    ∃ t : Fin cfg0.N, (cfg0.win 11).flush t = true ∧ i ∈ ((cfg0.win 11).blk t).view.set := by
  have hi0 : (i 0).val < 500000 := (i 0).isLt
  have hi1 : (i 1).val < 128 := (i 1).isLt
  have hN : cfg0.N = 125 := N_0
  have ht : (i 0).val / 4000 < cfg0.N := by rw [hN]; omega
  obtain ⟨-, -, -, -, -, -, -, -, -, -, -, ⟨a11, b11⟩⟩ := idx_facts ⟨(i 0).val / 4000, ht⟩
  refine ⟨⟨(i 0).val / 4000, ht⟩, flush0_11 _, ?_⟩
  rw [mem_blk]
  intro a
  match a with
  | ⟨0, _⟩ =>
    show win0_11.index ⟨(i 0).val / 4000, ht⟩ (0 : Fin 2) * 4000 ≤ (i 0).val
      ∧ (i 0).val < win0_11.index ⟨(i 0).val / 4000, ht⟩ (0 : Fin 2) * 4000 + 4000
    rw [a11]
    show (i 0).val / 4000 * 4000 ≤ (i 0).val ∧ (i 0).val < (i 0).val / 4000 * 4000 + 4000
    omega
  | ⟨1, _⟩ =>
    show win0_11.index ⟨(i 0).val / 4000, ht⟩ (1 : Fin 2) * 128 ≤ (i 1).val
      ∧ (i 1).val < win0_11.index ⟨(i 0).val / 4000, ht⟩ (1 : Fin 2) * 128 + 128
    rw [b11]
    omega

/-- THE ARRAY after the region: `psiOut` of the arrays it was entered with. -/
theorem final (c : Dev nD) : (dat0 V c).arrAt 11 cfg0.N = arr V c :=
  (dat0 V c).arrAt_eq_of_cover 11 (arr V c) (fun t _ => flushed_eq V c t) (cover)

end Cert.KernelIdeal.Psi

end
-- ==== Proof.PhiValue.lean ====
/-
  Region 1 (the residual-update perceptron) as a value: what its output array holds after the region, as one function of
  the arrays the region is entered with.

  The body makes ONE store of the whole 5000 × 128 output block. Its payload is, entry by entry,
      X[p,q] + ((∑ₖ silu(pre[p,k]) · W2[k,q]) + b2[q]),   pre[p,k] = ((X·Wh)[p,k] + (S·Wagg)[p,k]) + b1[k],
  two matrix products into zero accumulators, the bias repeated over the rows, the logistic activation times its
  argument, a second product and bias, and the state block (loaded a second time) added in front; every change of float
  format is the identity on the extended reals. That is `phiOut` of the seven input blocks (`block_eq`).

  Grid point t stages rows 5000·t … 5000·t + 4999 of the state, of the aggregated messages and of the output, and the
  weights and biases whole. Rows are independent, so point t writes back rows 5000·t … of `phiOut` of the whole arrays
  (`flushed_eq`); the 20 blocks tile the 100000 rows (`cover`), so the array ends at `phiOut` of the whole arrays (`final`).
-/
import proofs.«123935_j12051678233185_1_alg».proof.Proof.Gen.KernelIdeal.Frame
import proofs.«123935_j12051678233185_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)
open Cert.MlpLib Cert.Spec

namespace Cert.KernelIdeal.Phi

open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-! ## The body's matrix product, read at an entry -/

theorem lhs_w_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_w_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_w_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_w_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product into a zero accumulator at (p, q). -/
theorem mm_w {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant S5000x128 .f32 0x00000000#32) (ix2 p q)
      = ∑ k : Fin 128, lhs (ix2 p k) * rhs (ix2 k q) :=
  matmul_zero_ix2 dot_S5000x128_S128x128_S5000x128_1_0_0_1_n_n rfl rfl lhs_w_0 lhs_w_1 rhs_w_0 rhs_w_1 none lhs rhs p q

theorem logistic_apply {s : Shape} {φ : FTy} (x : FVec Ideal s φ) (i : s.Idx) : logistic x i = Ideal.logistic (x i) := rfl

/-! ## The body's payload at an entry -/

/-- The first layer's pre-activation at (p, k). -/
theorem pre_apply (x0 x1 : Vec Ideal S5000x128 .f32) (x2 x3 : Vec Ideal S128x128 .f32) (x4 : Vec Ideal S128 .f32)
    (p : Fin 5000) (k : Fin 128) :
    addf (F := Ideal) (addf (F := Ideal)
          (matmul (F := Ideal) dot_S5000x128_S128x128_S5000x128_1_0_0_1_n_n none (truncf (F := Ideal) .bf16 x0 bitsLt_bf16_f32) (truncf (F := Ideal) .bf16 x2 bitsLt_bf16_f32) (constant (F := Ideal) S5000x128 .f32 0x00000000#32))
          (matmul (F := Ideal) dot_S5000x128_S128x128_S5000x128_1_0_0_1_n_n none (truncf (F := Ideal) .bf16 x1 bitsLt_bf16_f32) (truncf (F := Ideal) .bf16 x3 bitsLt_bf16_f32) (constant (F := Ideal) S5000x128 .f32 0x00000000#32)))
      (broadcastTo S5000x128 (shapeCast S1x128 x4 shapeCasts_S128_S1x128) broadcasts_S1x128_S5000x128) (ix2 p k)
      = phiPre x0 x1 x2 x3 x4 p k := by
  simp only [addf_apply]
  rw [mm_w, mm_w, bias_row_apply]
  simp only [truncf_apply]
  rfl

/-- The stored value: the state plus the second layer over the hidden activations plus its bias. -/
theorem pay_apply (x0 x1 : Vec Ideal S5000x128 .f32) (x2 x3 : Vec Ideal S128x128 .f32) (x4 : Vec Ideal S128 .f32)
    (x5 : Vec Ideal S128x128 .f32) (x6 : Vec Ideal S128 .f32) (x7 : Vec Ideal S5000x128 .f32) (p : Fin 5000) (q : Fin 128) :
    k1_pay1 (F := Ideal) x0 x1 x2 x3 x4 x5 x6 x7 (ix2 p q)
      = x7 (ix2 p q) + ((∑ k : Fin 128, silu (phiPre x0 x1 x2 x3 x4 p k) * x5 (ix2 k q)) + x6 (ix1 q)) := by
  unfold k1_pay1
  simp only [shapeCast_self]
  rw [addf_apply, addf_apply, mm_w, bias_row_apply]
  refine congrArg (fun z => x7 (ix2 p q) + (z + x6 (ix1 q))) (Finset.sum_congr rfl fun k _ => ?_)
  rw [truncf_apply, truncf_apply, mulf_apply, logistic_apply, pre_apply]
  rfl

/-- The output block the body leaves is `phiOut` of the seven input blocks. -/
theorem block_eq (x0 x1 : Vec Ideal S5000x128 .f32) (x2 x3 : Vec Ideal S128x128 .f32) (x4 : Vec Ideal S128 .f32)
    (x5 : Vec Ideal S128x128 .f32) (x6 : Vec Ideal S128 .f32) :
    out1_7 (F := Ideal) x0 x1 x2 x3 x4 x5 x6 = phiOut x0 x1 x2 x3 x4 x5 x6 := by
  unfold out1_7
  rw [View.canon_unit_zero hz2]
  simp only [View.ld_unit_zero (S := S5000x128) hz2, View.ld_unit_zero (S := S128x128) hz2, View.ld_unit_zero (S := S128) hz1]
  funext i
  obtain ⟨p, q, rfl⟩ : ∃ (p : Fin 5000) (q : Fin 128), i = ix2 p q := ⟨i 0, i 1, eq_ix2 i⟩
  rw [pay_apply]
  rfl

/-! ## From blocks to the array, at any entry contents `V` of the region -/

variable (V : (c : Dev nD) → (b : Ref sig .tc) → Buf (Elt Ideal) ((c : Thread nD τ).loc b))

/-- What the region's output array ends holding: `phiOut` of the arrays it is entered with. -/
abbrev arr (c : Dev nD) : S100000x128.Idx → EReal :=
  phiOut (R := 100000) (V c main_arg0) (V c main_v30) (V c main_v4) (V c main_v5) (V c main_arg10) (V c main_arg11)
    (V c main_arg12)

/-- The printed index maps over the grid: the row-tiled windows sit at block (t, 0), the others at block zero. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = t.val ∧ win1_7.index t (1 : Fin 2) = 0) :=
  (by decide +kernel : ∀ t : Fin grid1.N, _)

/-- WHAT POINT `t` WRITES BACK is block `t` of `arr`. -/
theorem flushed_eq (c : Dev nD) (t : Fin cfg1.N) :
    (dat1 V c).flushed 7 t = ((cfg1.win 7).blk t).view.read (Elt Ideal) (arr V c) := by
  show (cfg1.win 7).cut (grid1.coords t) ((dat1 V c).after 7 t) = _
  rw [after1_7, block_eq]
  obtain ⟨⟨a0, b0⟩, ⟨a1, b1⟩, ⟨a2, b2⟩, ⟨a3, b3⟩, a4, ⟨a5, b5⟩, a6, ⟨a7, b7⟩⟩ := idx_facts t
  funext j
  have hj0 : (j 0).val < 5000 := (j 0).isLt
  have hj1 : (j 1).val < 128 := (j 1).isLt
  refine phiOut_rows (R := 100000) (n := 5000) (V c main_arg0) (V c main_v30) (V c main_v4) (V c main_v5) (V c main_arg10)
    (V c main_arg11) (V c main_arg12)
    (iblk1 V c 0 t) (iblk1 V c 1 t) (iblk1 V c 2 t) (iblk1 V c 3 t) (iblk1 V c 4 t) (iblk1 V c 5 t) (iblk1 V c 6 t)
    j (((cfg1.win 7).blk t).view.emb j) ?_ ?_ ?_ ?_ ?_ ?_ ?_ ?_ ?_
  · show win1_7.index t (1 : Fin 2) * 128 + 1 * (j 1).val = (j 1).val
    omega
  · show V c main_arg0 (((cfg1.win 0).blk t).view.emb j) = V c main_arg0 (((cfg1.win 7).blk t).view.emb j)
    refine congrArg (V c main_arg0) (funext fun ax => Fin.ext ?_)
    match ax with
    | ⟨0, _⟩ => show win1_0.index t (0 : Fin 2) * 5000 + 1 * (j 0).val = win1_7.index t (0 : Fin 2) * 5000 + 1 * (j 0).val; omega
    | ⟨1, _⟩ => show win1_0.index t (1 : Fin 2) * 128 + 1 * (j 1).val = win1_7.index t (1 : Fin 2) * 128 + 1 * (j 1).val; omega
  · intro a
    show V c main_arg0 (((cfg1.win 0).blk t).view.emb (ix2 (j 0) a)) = V c main_arg0 (ix2 ((((cfg1.win 7).blk t).view.emb j) 0) a)
    refine congrArg (V c main_arg0) (funext fun ax => Fin.ext ?_)
    match ax with
    | ⟨0, _⟩ => show win1_0.index t (0 : Fin 2) * 5000 + 1 * (j 0).val = win1_7.index t (0 : Fin 2) * 5000 + 1 * (j 0).val; omega
    | ⟨1, _⟩ => show win1_0.index t (1 : Fin 2) * 128 + 1 * a.val = a.val; omega
  · intro a
    show V c main_v30 (((cfg1.win 1).blk t).view.emb (ix2 (j 0) a)) = V c main_v30 (ix2 ((((cfg1.win 7).blk t).view.emb j) 0) a)
    refine congrArg (V c main_v30) (funext fun ax => Fin.ext ?_)
    match ax with
    | ⟨0, _⟩ => show win1_1.index t (0 : Fin 2) * 5000 + 1 * (j 0).val = win1_7.index t (0 : Fin 2) * 5000 + 1 * (j 0).val; omega
    | ⟨1, _⟩ => show win1_1.index t (1 : Fin 2) * 128 + 1 * a.val = a.val; omega
  · funext y
    show V c main_v4 (((cfg1.win 2).blk t).view.emb y) = V c main_v4 y
    refine congrArg (V c main_v4) (funext fun ax => Fin.ext ?_)
    match ax with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v5 (((cfg1.win 3).blk t).view.emb y) = V c main_v5 y
    refine congrArg (V c main_v5) (funext fun ax => Fin.ext ?_)
    match ax with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_arg10 (((cfg1.win 4).blk t).view.emb y) = V c main_arg10 y
    refine congrArg (V c main_arg10) (funext fun ax => Fin.ext ?_)
    match ax with
    | ⟨0, _⟩ => show win1_4.index t (0 : Fin 1) * 128 + 1 * (y 0).val = (y 0).val; omega
  · funext y
    show V c main_arg11 (((cfg1.win 5).blk t).view.emb y) = V c main_arg11 y
    refine congrArg (V c main_arg11) (funext fun ax => Fin.ext ?_)
    match ax with
    | ⟨0, _⟩ => show win1_5.index t (0 : Fin 2) * 128 + 1 * (y 0).val = (y 0).val; omega
    | ⟨1, _⟩ => show win1_5.index t (1 : Fin 2) * 128 + 1 * (y 1).val = (y 1).val; omega
  · funext y
    show V c main_arg12 (((cfg1.win 6).blk t).view.emb y) = V c main_arg12 y
    refine congrArg (V c main_arg12) (funext fun ax => Fin.ext ?_)
    match ax with
    | ⟨0, _⟩ => show win1_6.index t (0 : Fin 1) * 128 + 1 * (y 0).val = (y 0).val; omega

/-- An index of the array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v31).slice (win1_7.rect t)).set ↔ _
  rw [View.set_slice_whole, Rect.mem_set_unit]
  exact Iff.rfl

/-- Every row lies in some point's block: row r in block r / 5000. -/
theorem cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, ⟨a7, b7⟩⟩ := idx_facts ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [a7]
    show (i 0).val / 5000 * 5000 ≤ (i 0).val ∧ (i 0).val < (i 0).val / 5000 * 5000 + 5000
    omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [b7]
    omega

/-- THE ARRAY after the region: `phiOut` of the arrays it was entered with. -/
theorem final (c : Dev nD) : (dat1 V c).arrAt 7 cfg1.N = arr V c :=
  (dat1 V c).arrAt_eq_of_cover 7 (arr V c) (fun t _ => flushed_eq V c t) (cover)

end Cert.KernelIdeal.Phi

end
-- ==== Proof.HostSide.lean ====
/-
  The host side of the kernel program: what each array a region reads holds when the region is entered.

  Before region 0 the host cuts the first-layer weights of both perceptrons into row blocks (rows 0–127, 128–255,
  256–383 and 384–387 of the 388 × 128 matrix; rows 0–127 and 128–255 of the 256 × 128 matrix) and gathers the three
  endpoint rows of every triplet from the pair states; an index below zero is first shifted up by the number of pairs.
  None of these operations writes an argument array, so the arguments are read as launched.
  Between the regions the host adds region 0's output rows into a zero array at the rows the third index array names.
  Every array region 1 reads other than that sum was written before region 0, or is an argument, and region 0 writes
  only its own output; so it still holds at region 1's entry what it held at region 0's.
-/
import proofs.«123935_j12051678233185_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen

variable {F : FTy → Type} [FloatOps F]
variable (m : (ℓ : Loc nD τ sig) → Buf (Elt F) ℓ) (ρ : Dev nD → PrngReg)

/-! ## At region 0's entry -/

theorem V1_v12 (c : Dev nD) : V1 m ρ c main_v12 = ((Host.gather gather_S100000x128_S500000x1_S500000x128_1_0_n_n_0_1_1128 (m ((c : Thread nD τ).loc main_arg0)) (broadcastInDim S500000x1 ![0] bcast_S500000_S500000x1_0 (select (cmpi .slt (m ((c : Thread nD τ).loc main_arg1)) (broadcastInDim S500000 ![] bcast_S_S500000 (constantI S_ 32 0#32))) (addi (m ((c : Thread nD τ).loc main_arg1)) (broadcastInDim S500000 ![] bcast_S_S500000 (constantI S_ 32 100000#32))) (m ((c : Thread nD τ).loc main_arg1))))) : FVec F S500000x128 .f32) := by
  show StableHlo.after hostOps0 (W0 m ρ c) (Proc.devRef .tc main_v12) = _
  after_results_simp <;> rfl

theorem V1_v19 (c : Dev nD) : V1 m ρ c main_v19 = ((Host.gather gather_S100000x128_S500000x1_S500000x128_1_0_n_n_0_1_1128 (m ((c : Thread nD τ).loc main_arg0)) (broadcastInDim S500000x1 ![0] bcast_S500000_S500000x1_0 (select (cmpi .slt (m ((c : Thread nD τ).loc main_arg2)) (broadcastInDim S500000 ![] bcast_S_S500000 (constantI S_ 32 0#32))) (addi (m ((c : Thread nD τ).loc main_arg2)) (broadcastInDim S500000 ![] bcast_S_S500000 (constantI S_ 32 100000#32))) (m ((c : Thread nD τ).loc main_arg2))))) : FVec F S500000x128 .f32) := by
  show StableHlo.after hostOps0 (W0 m ρ c) (Proc.devRef .tc main_v19) = _
  after_results_simp <;> rfl

theorem V1_v26 (c : Dev nD) : V1 m ρ c main_v26 = ((Host.gather gather_S100000x128_S500000x1_S500000x128_1_0_n_n_0_1_1128 (m ((c : Thread nD τ).loc main_arg0)) (broadcastInDim S500000x1 ![0] bcast_S500000_S500000x1_0 (select (cmpi .slt (m ((c : Thread nD τ).loc main_arg3)) (broadcastInDim S500000 ![] bcast_S_S500000 (constantI S_ 32 0#32))) (addi (m ((c : Thread nD τ).loc main_arg3)) (broadcastInDim S500000 ![] bcast_S_S500000 (constantI S_ 32 100000#32))) (m ((c : Thread nD τ).loc main_arg3))))) : FVec F S500000x128 .f32) := by
  show StableHlo.after hostOps0 (W0 m ρ c) (Proc.devRef .tc main_v26) = _
  after_results_simp <;> rfl

theorem V1_v0 (c : Dev nD) : V1 m ρ c main_v0 = (extractStridedSlice S128x128 ![0, 0] (m ((c : Thread nD τ).loc main_arg5)) slices_S388x128_S128x128_0_0 : FVec F S128x128 .f32) := by
  show StableHlo.after hostOps0 (W0 m ρ c) (Proc.devRef .tc main_v0) = _
  after_results_simp <;> rfl

theorem V1_v1 (c : Dev nD) : V1 m ρ c main_v1 = (extractStridedSlice S128x128 ![128, 0] (m ((c : Thread nD τ).loc main_arg5)) slices_S388x128_S128x128_128_0 : FVec F S128x128 .f32) := by
  show StableHlo.after hostOps0 (W0 m ρ c) (Proc.devRef .tc main_v1) = _
  after_results_simp <;> rfl

theorem V1_v2 (c : Dev nD) : V1 m ρ c main_v2 = (extractStridedSlice S128x128 ![256, 0] (m ((c : Thread nD τ).loc main_arg5)) slices_S388x128_S128x128_256_0 : FVec F S128x128 .f32) := by
  show StableHlo.after hostOps0 (W0 m ρ c) (Proc.devRef .tc main_v2) = _
  after_results_simp <;> rfl

theorem V1_v3 (c : Dev nD) : V1 m ρ c main_v3 = (extractStridedSlice S4x128 ![384, 0] (m ((c : Thread nD τ).loc main_arg5)) slices_S388x128_S4x128_384_0 : FVec F S4x128 .f32) := by
  show StableHlo.after hostOps0 (W0 m ρ c) (Proc.devRef .tc main_v3) = _
  after_results_simp <;> rfl

theorem V1_v4 (c : Dev nD) : V1 m ρ c main_v4 = (extractStridedSlice S128x128 ![0, 0] (m ((c : Thread nD τ).loc main_arg9)) slices_S256x128_S128x128_0_0 : FVec F S128x128 .f32) := by
  show StableHlo.after hostOps0 (W0 m ρ c) (Proc.devRef .tc main_v4) = _
  after_results_simp <;> rfl

theorem V1_v5 (c : Dev nD) : V1 m ρ c main_v5 = (extractStridedSlice S128x128 ![128, 0] (m ((c : Thread nD τ).loc main_arg9)) slices_S256x128_S128x128_128_0 : FVec F S128x128 .f32) := by
  show StableHlo.after hostOps0 (W0 m ρ c) (Proc.devRef .tc main_v5) = _
  after_results_simp <;> rfl

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_arg3 (c : Dev nD) : V1 m ρ c main_arg3 = m ((c : Thread nD τ).loc main_arg3) := by
  show StableHlo.after hostOps0 (W0 m ρ c) (Proc.devRef .tc main_arg3) = _
  after_results_simp <;> rfl

theorem V1_arg4 (c : Dev nD) : V1 m ρ c main_arg4 = m ((c : Thread nD τ).loc main_arg4) := by
  show StableHlo.after hostOps0 (W0 m ρ c) (Proc.devRef .tc main_arg4) = _
  after_results_simp <;> rfl

theorem V1_arg6 (c : Dev nD) : V1 m ρ c main_arg6 = m ((c : Thread nD τ).loc main_arg6) := by
  show StableHlo.after hostOps0 (W0 m ρ c) (Proc.devRef .tc main_arg6) = _
  after_results_simp <;> rfl

theorem V1_arg7 (c : Dev nD) : V1 m ρ c main_arg7 = m ((c : Thread nD τ).loc main_arg7) := by
  show StableHlo.after hostOps0 (W0 m ρ c) (Proc.devRef .tc main_arg7) = _
  after_results_simp <;> rfl

theorem V1_arg8 (c : Dev nD) : V1 m ρ c main_arg8 = m ((c : Thread nD τ).loc main_arg8) := by
  show StableHlo.after hostOps0 (W0 m ρ c) (Proc.devRef .tc main_arg8) = _
  after_results_simp <;> rfl

theorem V1_arg10 (c : Dev nD) : V1 m ρ c main_arg10 = m ((c : Thread nD τ).loc main_arg10) := by
  show StableHlo.after hostOps0 (W0 m ρ c) (Proc.devRef .tc main_arg10) = _
  after_results_simp <;> rfl

theorem V1_arg11 (c : Dev nD) : V1 m ρ c main_arg11 = m ((c : Thread nD τ).loc main_arg11) := by
  show StableHlo.after hostOps0 (W0 m ρ c) (Proc.devRef .tc main_arg11) = _
  after_results_simp <;> rfl

theorem V1_arg12 (c : Dev nD) : V1 m ρ c main_arg12 = m ((c : Thread nD τ).loc main_arg12) := by
  show StableHlo.after hostOps0 (W0 m ρ c) (Proc.devRef .tc main_arg12) = _
  after_results_simp <;> rfl

/-! ## At region 1's entry -/

/-- A buffer that is no array of region 0 and that the stretch between the regions does not write holds at region 1's
    entry what it held at region 0's. -/
theorem V3_of_V1 (c : Dev nD) (b : Ref sig .tc) (hb : ∀ w, Pipeline.arrRef spec0 w ≠ b)
    (h1 : StableHlo.after hostOps1 (W2 m ρ c) (Proc.devRef .tc b) = W2 m ρ c (Proc.devRef .tc b)) :
    V3 m ρ c b = V1 m ρ c b :=
  h1.trans (W2_of_ne m ρ c b hb)

theorem V3_arg0 (c : Dev nD) : V3 m ρ c main_arg0 = V1 m ρ c main_arg0 :=
  V3_of_V1 m ρ c main_arg0 (by decide) (by after_results_simp <;> rfl)

theorem V3_v4 (c : Dev nD) : V3 m ρ c main_v4 = V1 m ρ c main_v4 :=
  V3_of_V1 m ρ c main_v4 (by decide) (by after_results_simp <;> rfl)

theorem V3_v5 (c : Dev nD) : V3 m ρ c main_v5 = V1 m ρ c main_v5 :=
  V3_of_V1 m ρ c main_v5 (by decide) (by after_results_simp <;> rfl)

theorem V3_arg10 (c : Dev nD) : V3 m ρ c main_arg10 = V1 m ρ c main_arg10 :=
  V3_of_V1 m ρ c main_arg10 (by decide) (by after_results_simp <;> rfl)

theorem V3_arg11 (c : Dev nD) : V3 m ρ c main_arg11 = V1 m ρ c main_arg11 :=
  V3_of_V1 m ρ c main_arg11 (by decide) (by after_results_simp <;> rfl)

theorem V3_arg12 (c : Dev nD) : V3 m ρ c main_arg12 = V1 m ρ c main_arg12 :=
  V3_of_V1 m ρ c main_arg12 (by decide) (by after_results_simp <;> rfl)

theorem V3_arg3 (c : Dev nD) : V3 m ρ c main_arg3 = V1 m ρ c main_arg3 :=
  V3_of_V1 m ρ c main_arg3 (by decide) (by after_results_simp <;> rfl)

/-- The aggregated messages: region 0's output rows added into a zero array at the rows the third index array names. -/
theorem V3_v30 (c : Dev nD) :
    V3 m ρ c main_v30
      = (Host.scatterAdd scatter_S100000x128_S500000x1_S500000x128_1_0_0_1
          (broadcastInDim S100000x128 ![] bcast_S_S100000x128 (constant S_ .f32 0x00000000#32))
          (broadcastInDim S500000x1 ![0] bcast_S500000_S500000x1_0 (m ((c : Thread nD τ).loc main_arg3)))
          ((dat0 (V1 m ρ) c).arrAt 11 cfg0.N) : FVec F S100000x128 .f32) := by
  have h3 : W2 m ρ c (Proc.devRef .tc main_arg3) = m ((c : Thread nD τ).loc main_arg3) :=
    (W2_of_ne m ρ c main_arg3 (by decide)).trans (V1_arg3 m ρ c)
  have h27 : W2 m ρ c (Proc.devRef .tc main_v27) = (dat0 (V1 m ρ) c).arrAt 11 cfg0.N := W2_arr m ρ c 11
  show StableHlo.after hostOps1 (W2 m ρ c) (Proc.devRef .tc main_v30) = _
  after_results_simp
  rw [h3, h27]

end Cert.KernelIdeal.HostSide

end
-- ==== Proof.KernelValue.lean ====
/-
  The kernel program's result as ONE function of the launch memory.

  `messages`: region 0's output array, `psiOut` of the three gathered endpoint arrays, the geometric features, the four row
  blocks of psi's first-layer weights and psi's remaining parameters.
  `aggregated`: the host's sum of the message rows into a zero array at the rows the third index array names.
  `result`: region 1's output array, `phiOut` of the pair states, the aggregated messages, the two row blocks of phi's
  first-layer weights and phi's remaining parameters.

  `result_eq`: the contents the launch ends with at the result array are `result` — region 1's array is `phiOut` of what
  the region was entered with (PhiValue), which is the launch memory and the aggregated messages (HostSide), and the
  messages under the sum are region 0's array, `psiOut` of what that region was entered with (PsiValue, HostSide).
-/
import proofs.«123935_j12051678233185_1_alg».proof.Proof.KernelRun
import proofs.«123935_j12051678233185_1_alg».proof.Proof.PsiValue
import proofs.«123935_j12051678233185_1_alg».proof.Proof.PhiValue
import proofs.«123935_j12051678233185_1_alg».proof.Proof.HostSide

set_option maxRecDepth 16384

noncomputable section

open Idealize.ShloMosaic Idealize.ShloMosaic.TcCoe Idealize.SL.Sem
open Cert.Spec

namespace Cert.KernelIdeal.Result

open Cert.KernelIdeal Cert.KernelIdeal.Gen

variable (m : (ℓ : Loc nD τ sig) → Buf (Elt Ideal) ℓ) (ρ : Dev nD → PrngReg)

/-- The triplet messages. -/
def messages (c : Dev nD) : S500000x128.Idx → EReal :=
  psiOut (R := 500000) (Host.gather gather_S100000x128_S500000x1_S500000x128_1_0_n_n_0_1_1128 (m ((c : Thread nD τ).loc main_arg0)) (broadcastInDim S500000x1 ![0] bcast_S500000_S500000x1_0 (select (cmpi .slt (m ((c : Thread nD τ).loc main_arg1)) (broadcastInDim S500000 ![] bcast_S_S500000 (constantI S_ 32 0#32))) (addi (m ((c : Thread nD τ).loc main_arg1)) (broadcastInDim S500000 ![] bcast_S_S500000 (constantI S_ 32 100000#32))) (m ((c : Thread nD τ).loc main_arg1)))))
    (Host.gather gather_S100000x128_S500000x1_S500000x128_1_0_n_n_0_1_1128 (m ((c : Thread nD τ).loc main_arg0)) (broadcastInDim S500000x1 ![0] bcast_S500000_S500000x1_0 (select (cmpi .slt (m ((c : Thread nD τ).loc main_arg2)) (broadcastInDim S500000 ![] bcast_S_S500000 (constantI S_ 32 0#32))) (addi (m ((c : Thread nD τ).loc main_arg2)) (broadcastInDim S500000 ![] bcast_S_S500000 (constantI S_ 32 100000#32))) (m ((c : Thread nD τ).loc main_arg2)))))
    (Host.gather gather_S100000x128_S500000x1_S500000x128_1_0_n_n_0_1_1128 (m ((c : Thread nD τ).loc main_arg0)) (broadcastInDim S500000x1 ![0] bcast_S500000_S500000x1_0 (select (cmpi .slt (m ((c : Thread nD τ).loc main_arg3)) (broadcastInDim S500000 ![] bcast_S_S500000 (constantI S_ 32 0#32))) (addi (m ((c : Thread nD τ).loc main_arg3)) (broadcastInDim S500000 ![] bcast_S_S500000 (constantI S_ 32 100000#32))) (m ((c : Thread nD τ).loc main_arg3)))))
    (m ((c : Thread nD τ).loc main_arg4))
    (extractStridedSlice S128x128 ![0, 0] (m ((c : Thread nD τ).loc main_arg5)) slices_S388x128_S128x128_0_0)
    (extractStridedSlice S128x128 ![128, 0] (m ((c : Thread nD τ).loc main_arg5)) slices_S388x128_S128x128_128_0)
    (extractStridedSlice S128x128 ![256, 0] (m ((c : Thread nD τ).loc main_arg5)) slices_S388x128_S128x128_256_0)
    (extractStridedSlice S4x128 ![384, 0] (m ((c : Thread nD τ).loc main_arg5)) slices_S388x128_S4x128_384_0)
    (m ((c : Thread nD τ).loc main_arg6)) (m ((c : Thread nD τ).loc main_arg7)) (m ((c : Thread nD τ).loc main_arg8))

/-- The messages summed onto the pairs. -/
def aggregated (c : Dev nD) : S100000x128.Idx → EReal :=
  Host.scatterAdd (F := Ideal) scatter_S100000x128_S500000x1_S500000x128_1_0_0_1
    (broadcastInDim S100000x128 ![] bcast_S_S100000x128 (constant (F := Ideal) S_ .f32 0x00000000#32))
    (broadcastInDim S500000x1 ![0] bcast_S500000_S500000x1_0 (m ((c : Thread nD τ).loc main_arg3)))
    (messages m c)

/-- The updated pair states. -/
def result (c : Dev nD) : S100000x128.Idx → EReal :=
  phiOut (R := 100000) (m ((c : Thread nD τ).loc main_arg0)) (aggregated m c)
    (extractStridedSlice S128x128 ![0, 0] (m ((c : Thread nD τ).loc main_arg9)) slices_S256x128_S128x128_0_0)
    (extractStridedSlice S128x128 ![128, 0] (m ((c : Thread nD τ).loc main_arg9)) slices_S256x128_S128x128_128_0)
    (m ((c : Thread nD τ).loc main_arg10)) (m ((c : Thread nD τ).loc main_arg11)) (m ((c : Thread nD τ).loc main_arg12))

/-- Region 0's array after the region is `messages`. -/
theorem messages_eq (c : Dev nD) : (dat0 (V1 m ρ) c).arrAt 11 cfg0.N = messages m c := by
  refine (Psi.final (V1 m ρ) c).trans ?_
  show psiOut (R := 500000) (V1 m ρ c main_v12) (V1 m ρ c main_v19) (V1 m ρ c main_v26) (V1 m ρ c main_arg4)
    (V1 m ρ c main_v0) (V1 m ρ c main_v1) (V1 m ρ c main_v2) (V1 m ρ c main_v3) (V1 m ρ c main_arg6) (V1 m ρ c main_arg7)
    (V1 m ρ c main_arg8) = _
  rw [HostSide.V1_v12 m ρ c, HostSide.V1_v19 m ρ c, HostSide.V1_v26 m ρ c, HostSide.V1_arg4 m ρ c, HostSide.V1_v0 m ρ c,
    HostSide.V1_v1 m ρ c, HostSide.V1_v2 m ρ c, HostSide.V1_v3 m ρ c, HostSide.V1_arg6 m ρ c, HostSide.V1_arg7 m ρ c,
    HostSide.V1_arg8 m ρ c]
  rfl

/-- The contents the launch ends with at the result array are `result`. -/
theorem result_eq (c : Dev nD) : W4 m ρ c (Proc.devRef .tc main_v31) = result m c := by
  refine (Hand.W4_result m ρ c).trans ((Phi.final (V3 m ρ) c).trans ?_)
  show phiOut (R := 100000) (V3 m ρ c main_arg0) (V3 m ρ c main_v30) (V3 m ρ c main_v4) (V3 m ρ c main_v5)
    (V3 m ρ c main_arg10) (V3 m ρ c main_arg11) (V3 m ρ c main_arg12) = _
  rw [HostSide.V3_arg0 m ρ c, HostSide.V1_arg0 m ρ c, HostSide.V3_v30 m ρ c, messages_eq m ρ c,
    HostSide.V3_v4 m ρ c, HostSide.V1_v4 m ρ c, HostSide.V3_v5 m ρ c, HostSide.V1_v5 m ρ c,
    HostSide.V3_arg10 m ρ c, HostSide.V1_arg10 m ρ c, HostSide.V3_arg11 m ρ c, HostSide.V1_arg11 m ρ c,
    HostSide.V3_arg12 m ρ c, HostSide.V1_arg12 m ρ c]
  rfl

/-- The kernel program's run, read: the result array ends at `result` of the launch memory, the arguments unchanged. -/
theorem run : θ_run defs (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩) (Hand.run_named (F := Ideal) m ρ)

end Cert.KernelIdeal.Result

end
-- ==== Proof.RefValue.lean ====
/-
  The reference program's two perceptron stages, read entry by entry, are the specification's `psiOut` and `phiOut`.

  psi: the reference joins the three gathered endpoint rows and the geometric features into one row of length
  388 = 128 + 128 + 128 + 4 and contracts it with the whole first-layer weight matrix. Splitting that one sum at 128,
  256 and 384 gives the four partial products of `psiPre`, each over one piece of the joined row and the matching row
  block of the weights. The split is a regrouping of a finite sum in an additive commutative monoid, so it holds on the
  extended reals without any finiteness assumption. The activation x · (1 / (1 + exp (−x))) is `silu`.

  phi: the same with a joined row of length 256 = 128 + 128 (the pair state and the aggregated messages), and the
  state added to the update at the end.
-/
import proofs.«123935_j12051678233185_1_alg».proof.Proof.Gen.ReferenceIdeal.Read
import proofs.«123935_j12051678233185_1_alg».proof.Proof.Spec
import Idealize.ShloMosaic.Lib.ValueLayout

noncomputable section

open Idealize.ShloMosaic Idealize.ShloMosaic.ValueIdx Cert.MlpLib Cert.Spec

namespace Cert.ReferenceIdeal.Hand

open Cert.ReferenceIdeal Cert.ReferenceIdeal.Read

/-! ## Regrouping a finite sum -/

/-- A sum over 388 = 128 + 128 + 128 + 4 indices, split at 128, 256 and 384. -/
theorem sum_fin_388 {M : Type*} [AddCommMonoid M] (f : Fin 388 → M) :
    ∑ k, f k = (((∑ a : Fin 128, f ⟨a.val, by have := a.isLt; omega⟩) + ∑ a : Fin 128, f ⟨128 + a.val, by have := a.isLt; omega⟩)
        + ∑ a : Fin 128, f ⟨256 + a.val, by have := a.isLt; omega⟩) + ∑ a : Fin 4, f ⟨384 + a.val, by have := a.isLt; omega⟩ := by
  have e1 := sum_fin_add 384 4 f
  have e2 := sum_fin_add 256 128 (fun a : Fin 384 => f ⟨a.val, by have := a.isLt; omega⟩)
  have e3 := sum_fin_add 128 128 (fun a : Fin 256 => f ⟨a.val, by have := a.isLt; omega⟩)
  exact e1.trans (congrArg (· + _) (e2.trans (congrArg (· + _) e3)))

/-- A sum over 256 = 128 + 128 indices, split at 128. -/
theorem sum_fin_256 {M : Type*} [AddCommMonoid M] (f : Fin 256 → M) :
    ∑ k, f k = (∑ a : Fin 128, f ⟨a.val, by have := a.isLt; omega⟩) + ∑ a : Fin 128, f ⟨128 + a.val, by have := a.isLt; omega⟩ :=
  sum_fin_add 128 128 f

/-! ## Reading a joined row

Four matrices with the same number of rows, 128, 128, 128 and 4 columns wide, joined along the columns: the entry at
column `k` of the joined row is the entry of the piece whose span holds `k`, at `k` less the widths before it. -/

section Joined
variable {α : Type}

/-- Columns 0–127 of the joined row are the first piece. -/
theorem cat4_p0 {R : ℕ} (A B C : (⟨2, ![R, 128]⟩ : Shape).Idx → α) (G : (⟨2, ![R, 4]⟩ : Shape).Idx → α)
    (h : Shape.Concatenates [(⟨2, ![R, 128]⟩ : Shape), ⟨2, ![R, 128]⟩, ⟨2, ![R, 128]⟩, ⟨2, ![R, 4]⟩] ⟨2, ![R, 388]⟩ 1)
    (r : Fin R) (a : Fin 128) (k : Fin 388) (hk : k.val = a.val) :
    concatenate (⟨2, ![R, 388]⟩ : Shape) 1 [⟨_, A⟩, ⟨_, B⟩, ⟨_, C⟩, ⟨_, G⟩] h (ix2 r k) = A (ix2 r a) :=
  concatenate_apply_piece (t := ⟨2, ![R, 388]⟩) 1 [⟨_, A⟩, ⟨_, B⟩, ⟨_, C⟩, ⟨_, G⟩] h (ix2 r k) 0 (by simp) _ A rfl rfl 0 rfl (ix2 r a)
    (fun b => by match b with | ⟨0, _⟩ => intro _; rfl | ⟨1, _⟩ => intro hb; exact absurd rfl hb)
    (by show 0 + a.val = k.val; omega)

/-- Columns 128–255 of the joined row are the second piece. -/
theorem cat4_p1 {R : ℕ} (A B C : (⟨2, ![R, 128]⟩ : Shape).Idx → α) (G : (⟨2, ![R, 4]⟩ : Shape).Idx → α)
    (h : Shape.Concatenates [(⟨2, ![R, 128]⟩ : Shape), ⟨2, ![R, 128]⟩, ⟨2, ![R, 128]⟩, ⟨2, ![R, 4]⟩] ⟨2, ![R, 388]⟩ 1)
    (r : Fin R) (a : Fin 128) (k : Fin 388) (hk : k.val = 128 + a.val) :
    concatenate (⟨2, ![R, 388]⟩ : Shape) 1 [⟨_, A⟩, ⟨_, B⟩, ⟨_, C⟩, ⟨_, G⟩] h (ix2 r k) = B (ix2 r a) :=
  concatenate_apply_piece (t := ⟨2, ![R, 388]⟩) 1 [⟨_, A⟩, ⟨_, B⟩, ⟨_, C⟩, ⟨_, G⟩] h (ix2 r k) 1 (by simp) _ B rfl rfl 128 rfl (ix2 r a)
    (fun b => by match b with | ⟨0, _⟩ => intro _; rfl | ⟨1, _⟩ => intro hb; exact absurd rfl hb)
    (by show 128 + a.val = k.val; omega)

/-- Columns 256–383 of the joined row are the third piece. -/
theorem cat4_p2 {R : ℕ} (A B C : (⟨2, ![R, 128]⟩ : Shape).Idx → α) (G : (⟨2, ![R, 4]⟩ : Shape).Idx → α)
    (h : Shape.Concatenates [(⟨2, ![R, 128]⟩ : Shape), ⟨2, ![R, 128]⟩, ⟨2, ![R, 128]⟩, ⟨2, ![R, 4]⟩] ⟨2, ![R, 388]⟩ 1)
    (r : Fin R) (a : Fin 128) (k : Fin 388) (hk : k.val = 256 + a.val) :
    concatenate (⟨2, ![R, 388]⟩ : Shape) 1 [⟨_, A⟩, ⟨_, B⟩, ⟨_, C⟩, ⟨_, G⟩] h (ix2 r k) = C (ix2 r a) :=
  concatenate_apply_piece (t := ⟨2, ![R, 388]⟩) 1 [⟨_, A⟩, ⟨_, B⟩, ⟨_, C⟩, ⟨_, G⟩] h (ix2 r k) 2 (by simp) _ C rfl rfl 256 rfl (ix2 r a)
    (fun b => by match b with | ⟨0, _⟩ => intro _; rfl | ⟨1, _⟩ => intro hb; exact absurd rfl hb)
    (by show 256 + a.val = k.val; omega)

/-- Columns 384–387 of the joined row are the fourth piece. -/
theorem cat4_p3 {R : ℕ} (A B C : (⟨2, ![R, 128]⟩ : Shape).Idx → α) (G : (⟨2, ![R, 4]⟩ : Shape).Idx → α)
    (h : Shape.Concatenates [(⟨2, ![R, 128]⟩ : Shape), ⟨2, ![R, 128]⟩, ⟨2, ![R, 128]⟩, ⟨2, ![R, 4]⟩] ⟨2, ![R, 388]⟩ 1)
    (r : Fin R) (a : Fin 4) (k : Fin 388) (hk : k.val = 384 + a.val) :
    concatenate (⟨2, ![R, 388]⟩ : Shape) 1 [⟨_, A⟩, ⟨_, B⟩, ⟨_, C⟩, ⟨_, G⟩] h (ix2 r k) = G (ix2 r a) :=
  concatenate_apply_piece (t := ⟨2, ![R, 388]⟩) 1 [⟨_, A⟩, ⟨_, B⟩, ⟨_, C⟩, ⟨_, G⟩] h (ix2 r k) 3 (by simp) _ G rfl rfl 384 rfl (ix2 r a)
    (fun b => by match b with | ⟨0, _⟩ => intro _; rfl | ⟨1, _⟩ => intro hb; exact absurd rfl hb)
    (by show 384 + a.val = k.val; omega)

/-- Two matrices 128 columns wide joined along the columns: columns 0–127 are the first. -/
theorem cat2_p0 {R : ℕ} (A B : (⟨2, ![R, 128]⟩ : Shape).Idx → α)
    (h : Shape.Concatenates [(⟨2, ![R, 128]⟩ : Shape), ⟨2, ![R, 128]⟩] ⟨2, ![R, 256]⟩ 1)
    (r : Fin R) (a : Fin 128) (k : Fin 256) (hk : k.val = a.val) :
    concatenate (⟨2, ![R, 256]⟩ : Shape) 1 [⟨_, A⟩, ⟨_, B⟩] h (ix2 r k) = A (ix2 r a) :=
  concatenate_apply_piece (t := ⟨2, ![R, 256]⟩) 1 [⟨_, A⟩, ⟨_, B⟩] h (ix2 r k) 0 (by simp) _ A rfl rfl 0 rfl (ix2 r a)
    (fun b => by match b with | ⟨0, _⟩ => intro _; rfl | ⟨1, _⟩ => intro hb; exact absurd rfl hb)
    (by show 0 + a.val = k.val; omega)

/-- Columns 128–255 are the second. -/
theorem cat2_p1 {R : ℕ} (A B : (⟨2, ![R, 128]⟩ : Shape).Idx → α)
    (h : Shape.Concatenates [(⟨2, ![R, 128]⟩ : Shape), ⟨2, ![R, 128]⟩] ⟨2, ![R, 256]⟩ 1)
    (r : Fin R) (a : Fin 128) (k : Fin 256) (hk : k.val = 128 + a.val) :
    concatenate (⟨2, ![R, 256]⟩ : Shape) 1 [⟨_, A⟩, ⟨_, B⟩] h (ix2 r k) = B (ix2 r a) :=
  concatenate_apply_piece (t := ⟨2, ![R, 256]⟩) 1 [⟨_, A⟩, ⟨_, B⟩] h (ix2 r k) 1 (by simp) _ B rfl rfl 128 rfl (ix2 r a)
    (fun b => by match b with | ⟨0, _⟩ => intro _; rfl | ⟨1, _⟩ => intro hb; exact absurd rfl hb)
    (by show 128 + a.val = k.val; omega)

end Joined

/-! ## A joined row against the whole weight matrix -/

/-- A joined row of length 388 against a 388-row matrix: four partial products, each over one piece of the row and the
    matching row block of the matrix. -/
theorem dot_cat4 {M : Type} [AddCommMonoid M] [Mul M] {R : ℕ}
    (A B C : (⟨2, ![R, 128]⟩ : Shape).Idx → M) (G : (⟨2, ![R, 4]⟩ : Shape).Idx → M)
    (h : Shape.Concatenates [(⟨2, ![R, 128]⟩ : Shape), ⟨2, ![R, 128]⟩, ⟨2, ![R, 128]⟩, ⟨2, ![R, 4]⟩] ⟨2, ![R, 388]⟩ 1)
    (W : (⟨2, ![388, 128]⟩ : Shape).Idx → M)
    (ha : (⟨2, ![388, 128]⟩ : Shape).Slices ![0, 0] ⟨2, ![128, 128]⟩)
    (hb : (⟨2, ![388, 128]⟩ : Shape).Slices ![128, 0] ⟨2, ![128, 128]⟩)
    (hc : (⟨2, ![388, 128]⟩ : Shape).Slices ![256, 0] ⟨2, ![128, 128]⟩)
    (hg : (⟨2, ![388, 128]⟩ : Shape).Slices ![384, 0] ⟨2, ![4, 128]⟩)
    (r : Fin R) (k : Fin 128) :
    ∑ k' : Fin 388, concatenate (⟨2, ![R, 388]⟩ : Shape) 1 [⟨_, A⟩, ⟨_, B⟩, ⟨_, C⟩, ⟨_, G⟩] h (ix2 r k') * W (ix2 k' k)
      = (((∑ a : Fin 128, A (ix2 r a) * extractStridedSlice ⟨2, ![128, 128]⟩ ![0, 0] W ha (ix2 a k))
            + ∑ a : Fin 128, B (ix2 r a) * extractStridedSlice ⟨2, ![128, 128]⟩ ![128, 0] W hb (ix2 a k))
          + ∑ a : Fin 128, C (ix2 r a) * extractStridedSlice ⟨2, ![128, 128]⟩ ![256, 0] W hc (ix2 a k))
        + ∑ a : Fin 4, G (ix2 r a) * extractStridedSlice ⟨2, ![4, 128]⟩ ![384, 0] W hg (ix2 a k) := by
  rw [sum_fin_388]
  refine congrArg₂ (· + ·) (congrArg₂ (· + ·) (congrArg₂ (· + ·) ?_ ?_) ?_) ?_
  · exact Finset.sum_congr rfl fun a _ => by
      rw [cat4_p0 A B C G h r a _ rfl, slice2_axis0_apply 0 W ha a k ⟨a.val, by have := a.isLt; omega⟩ (Nat.zero_add _).symm]
  · exact Finset.sum_congr rfl fun a _ => by
      rw [cat4_p1 A B C G h r a _ rfl, slice2_axis0_apply 128 W hb a k ⟨128 + a.val, by have := a.isLt; omega⟩ rfl]
  · exact Finset.sum_congr rfl fun a _ => by
      rw [cat4_p2 A B C G h r a _ rfl, slice2_axis0_apply 256 W hc a k ⟨256 + a.val, by have := a.isLt; omega⟩ rfl]
  · exact Finset.sum_congr rfl fun a _ => by
      rw [cat4_p3 A B C G h r a _ rfl, slice2_axis0_apply 384 W hg a k ⟨384 + a.val, by have := a.isLt; omega⟩ rfl]

/-- A joined row of length 256 against a 256-row matrix: two partial products. -/
theorem dot_cat2 {M : Type} [AddCommMonoid M] [Mul M] {R : ℕ}
    (A B : (⟨2, ![R, 128]⟩ : Shape).Idx → M)
    (h : Shape.Concatenates [(⟨2, ![R, 128]⟩ : Shape), ⟨2, ![R, 128]⟩] ⟨2, ![R, 256]⟩ 1)
    (W : (⟨2, ![256, 128]⟩ : Shape).Idx → M)
    (ha : (⟨2, ![256, 128]⟩ : Shape).Slices ![0, 0] ⟨2, ![128, 128]⟩)
    (hb : (⟨2, ![256, 128]⟩ : Shape).Slices ![128, 0] ⟨2, ![128, 128]⟩)
    (r : Fin R) (k : Fin 128) :
    ∑ k' : Fin 256, concatenate (⟨2, ![R, 256]⟩ : Shape) 1 [⟨_, A⟩, ⟨_, B⟩] h (ix2 r k') * W (ix2 k' k)
      = (∑ a : Fin 128, A (ix2 r a) * extractStridedSlice ⟨2, ![128, 128]⟩ ![0, 0] W ha (ix2 a k))
        + ∑ a : Fin 128, B (ix2 r a) * extractStridedSlice ⟨2, ![128, 128]⟩ ![128, 0] W hb (ix2 a k) := by
  rw [sum_fin_256]
  refine congrArg₂ (· + ·) ?_ ?_
  · exact Finset.sum_congr rfl fun a _ => by
      rw [cat2_p0 A B h r a _ rfl, slice2_axis0_apply 0 W ha a k ⟨a.val, by have := a.isLt; omega⟩ (Nat.zero_add _).symm]
  · exact Finset.sum_congr rfl fun a _ => by
      rw [cat2_p1 A B h r a _ rfl, slice2_axis0_apply 128 W hb a k ⟨128 + a.val, by have := a.isLt; omega⟩ rfl]

/-! ## psi in the reference -/

/-- psi's first layer: the joined row against the whole first-layer matrix, plus the bias, is `psiPre` of the four
    pieces and the four row blocks. -/
theorem psi_pre_ref (x0 : S100000x128.Idx → EReal) (x1 x2 x3 : S500000.Idx → BitVec 32) (x4 : S500000x4.Idx → EReal)
    (x5 : S388x128.Idx → EReal) (x6 : S128.Idx → EReal)
    (ha : S388x128.Slices ![0, 0] S128x128) (hb : S388x128.Slices ![128, 0] S128x128)
    (hc : S388x128.Slices ![256, 0] S128x128) (hg : S388x128.Slices ![384, 0] (⟨2, ![4, 128]⟩ : Shape))
    (r : Fin 500000) (k : Fin 128) :
    val_main_v25 (F := Ideal) x0 x1 x2 x3 x4 x5 x6 (ix2 r k)
      = psiPre (val_main_v6 (F := Ideal) x0 x1) (val_main_v13 (F := Ideal) x0 x2) (val_main_v20 (F := Ideal) x0 x3) x4
          (extractStridedSlice S128x128 ![0, 0] x5 ha) (extractStridedSlice S128x128 ![128, 0] x5 hb)
          (extractStridedSlice S128x128 ![256, 0] x5 hc) (extractStridedSlice (⟨2, ![4, 128]⟩ : Shape) ![384, 0] x5 hg)
          x6 r k := by
  have el : ∀ k' : Fin 388, lidx_main_v22 (ix2 r k) k' = ix2 r k' := fun k' =>
    funext fun a => Fin.ext (by match a with | ⟨0, _⟩ => rfl | ⟨1, _⟩ => rfl)
  have er : ∀ k' : Fin 388, ridx_main_v22 (ix2 r k) k' = ix2 k' k := fun k' =>
    funext fun a => Fin.ext (by match a with | ⟨0, _⟩ => rfl | ⟨1, _⟩ => rfl)
  have eb : idx_main_v23 (idx_main_v24 (ix2 r k)) = ix1 k :=
    funext fun a => Fin.ext (by match a with | ⟨0, _⟩ => rfl)
  have hs : ∑ k' : Fin 388, val_main_v21 (F := Ideal) x0 x1 x2 x3 x4 (lidx_main_v22 (ix2 r k) k') * x5 (ridx_main_v22 (ix2 r k) k')
      = ∑ k' : Fin 388, val_main_v21 (F := Ideal) x0 x1 x2 x3 x4 (ix2 r k') * x5 (ix2 k' k) :=
    Finset.sum_congr rfl fun k' _ => by rw [el k', er k']
  rw [val_main_v25_apply, val_main_v22_apply, val_main_v24_apply, val_main_v23_apply, eb]
  exact congrArg (fun s : EReal => s + x6 (ix1 k)) (hs.trans
    (dot_cat4 (M := EReal) (val_main_v6 (F := Ideal) x0 x1) (val_main_v13 (F := Ideal) x0 x2) (val_main_v20 (F := Ideal) x0 x3) x4
      Cert.ReferenceIdeal.Gen.concatenates_S500000x128_S500000x128_S500000x128_S500000x4_S500000x388_d1 x5 ha hb hc hg r k))

/-- psi's hidden layer: the host's x · (1 / (1 + exp (−x))) of the first layer is its `silu`. -/
theorem psi_act_ref (x0 : S100000x128.Idx → EReal) (x1 x2 x3 : S500000.Idx → BitVec 32) (x4 : S500000x4.Idx → EReal)
    (x5 : S388x128.Idx → EReal) (x6 : S128.Idx → EReal)
    (ha : S388x128.Slices ![0, 0] S128x128) (hb : S388x128.Slices ![128, 0] S128x128)
    (hc : S388x128.Slices ![256, 0] S128x128) (hg : S388x128.Slices ![384, 0] (⟨2, ![4, 128]⟩ : Shape))
    (r : Fin 500000) (k : Fin 128) :
    val_main_v26 (F := Ideal) x0 x1 x2 x3 x4 x5 x6 (ix2 r k)
      = silu (psiPre (val_main_v6 (F := Ideal) x0 x1) (val_main_v13 (F := Ideal) x0 x2) (val_main_v20 (F := Ideal) x0 x3) x4
          (extractStridedSlice S128x128 ![0, 0] x5 ha) (extractStridedSlice S128x128 ![128, 0] x5 hb)
          (extractStridedSlice S128x128 ![256, 0] x5 hc) (extractStridedSlice (⟨2, ![4, 128]⟩ : Shape) ![384, 0] x5 hg)
          x6 r k) := by
  rw [val_main_v26_apply, val_main_call0_v5_apply, val_main_call0_v4_apply, val_main_call0_cst_0_apply,
    val_main_call0_v3_apply, val_main_call0_v2_apply, val_main_call0_cst_apply, val_main_call0_v1_apply,
    val_main_call0_v0_apply, psi_pre_ref x0 x1 x2 x3 x4 x5 x6 ha hb hc hg r k]
  exact silu_host _

/-- The triplet message the reference computes (its buffer %30) is `psiOut` of the three gathered arrays, the geometric
    features, the four row blocks of the first-layer weights, and the remaining parameters. -/
theorem psi_ref (x0 : S100000x128.Idx → EReal) (x1 x2 x3 : S500000.Idx → BitVec 32) (x4 : S500000x4.Idx → EReal)
    (x5 : S388x128.Idx → EReal) (x6 : S128.Idx → EReal) (x7 : S128x128.Idx → EReal) (x8 : S128.Idx → EReal)
    (ha : S388x128.Slices ![0, 0] S128x128) (hb : S388x128.Slices ![128, 0] S128x128)
    (hc : S388x128.Slices ![256, 0] S128x128) (hg : S388x128.Slices ![384, 0] (⟨2, ![4, 128]⟩ : Shape)) :
    val_main_v30 (F := Ideal) x0 x1 x2 x3 x4 x5 x6 x7 x8
      = psiOut (val_main_v6 (F := Ideal) x0 x1) (val_main_v13 (F := Ideal) x0 x2) (val_main_v20 (F := Ideal) x0 x3) x4
          (extractStridedSlice S128x128 ![0, 0] x5 ha) (extractStridedSlice S128x128 ![128, 0] x5 hb)
          (extractStridedSlice S128x128 ![256, 0] x5 hc) (extractStridedSlice (⟨2, ![4, 128]⟩ : Shape) ![384, 0] x5 hg)
          x6 x7 x8 := by
  funext i
  obtain ⟨r, q, rfl⟩ : ∃ (r : Fin 500000) (q : Fin 128), i = ix2 r q := ⟨i 0, i 1, eq_ix2 i⟩
  have el : ∀ k : Fin 128, lidx_main_v27 (ix2 r q) k = ix2 r k := fun k =>
    funext fun a => Fin.ext (by match a with | ⟨0, _⟩ => rfl | ⟨1, _⟩ => rfl)
  have er : ∀ k : Fin 128, ridx_main_v27 (ix2 r q) k = ix2 k q := fun k =>
    funext fun a => Fin.ext (by match a with | ⟨0, _⟩ => rfl | ⟨1, _⟩ => rfl)
  have eb : idx_main_v28 (idx_main_v29 (ix2 r q)) = ix1 q :=
    funext fun a => Fin.ext (by match a with | ⟨0, _⟩ => rfl)
  have hs : ∑ k : Fin 128, val_main_v26 (F := Ideal) x0 x1 x2 x3 x4 x5 x6 (lidx_main_v27 (ix2 r q) k) * x7 (ridx_main_v27 (ix2 r q) k)
      = ∑ k : Fin 128, silu (psiPre (val_main_v6 (F := Ideal) x0 x1) (val_main_v13 (F := Ideal) x0 x2) (val_main_v20 (F := Ideal) x0 x3) x4
          (extractStridedSlice S128x128 ![0, 0] x5 ha) (extractStridedSlice S128x128 ![128, 0] x5 hb)
          (extractStridedSlice S128x128 ![256, 0] x5 hc) (extractStridedSlice (⟨2, ![4, 128]⟩ : Shape) ![384, 0] x5 hg)
          x6 r k) * x7 (ix2 k q) :=
    Finset.sum_congr rfl fun k _ => by rw [el k, er k, psi_act_ref x0 x1 x2 x3 x4 x5 x6 ha hb hc hg r k]
  rw [val_main_v30_apply, val_main_v27_apply, val_main_v29_apply, val_main_v28_apply, eb]
  exact congrArg (fun s : EReal => s + x8 (ix1 q)) hs

/-! ## phi in the reference -/

/-- phi's first layer: the joined row (the pair state, then the aggregated messages) against the whole first-layer
    matrix, plus the bias, is `phiPre` of the two pieces and the two row blocks. -/
theorem phi_pre_ref (x0 : S100000x128.Idx → EReal) (x1 x2 x3 : S500000.Idx → BitVec 32) (x4 : S500000x4.Idx → EReal)
    (x5 : S388x128.Idx → EReal) (x6 : S128.Idx → EReal) (x7 : S128x128.Idx → EReal) (x8 : S128.Idx → EReal)
    (x9 : S256x128.Idx → EReal) (x10 : S128.Idx → EReal)
    (hh : S256x128.Slices ![0, 0] S128x128) (hagg : S256x128.Slices ![128, 0] S128x128)
    (r : Fin 100000) (k : Fin 128) :
    val_main_v38 (F := Ideal) x0 x1 x2 x3 x4 x5 x6 x7 x8 x9 x10 (ix2 r k)
      = phiPre x0 (val_main_v33 (F := Ideal) x0 x1 x2 x3 x4 x5 x6 x7 x8)
          (extractStridedSlice S128x128 ![0, 0] x9 hh) (extractStridedSlice S128x128 ![128, 0] x9 hagg) x10 r k := by
  have el : ∀ k' : Fin 256, lidx_main_v35 (ix2 r k) k' = ix2 r k' := fun k' =>
    funext fun a => Fin.ext (by match a with | ⟨0, _⟩ => rfl | ⟨1, _⟩ => rfl)
  have er : ∀ k' : Fin 256, ridx_main_v35 (ix2 r k) k' = ix2 k' k := fun k' =>
    funext fun a => Fin.ext (by match a with | ⟨0, _⟩ => rfl | ⟨1, _⟩ => rfl)
  have eb : idx_main_v36 (idx_main_v37 (ix2 r k)) = ix1 k :=
    funext fun a => Fin.ext (by match a with | ⟨0, _⟩ => rfl)
  have hs : ∑ k' : Fin 256, val_main_v34 (F := Ideal) x0 x1 x2 x3 x4 x5 x6 x7 x8 (lidx_main_v35 (ix2 r k) k') * x9 (ridx_main_v35 (ix2 r k) k')
      = ∑ k' : Fin 256, val_main_v34 (F := Ideal) x0 x1 x2 x3 x4 x5 x6 x7 x8 (ix2 r k') * x9 (ix2 k' k) :=
    Finset.sum_congr rfl fun k' _ => by rw [el k', er k']
  rw [val_main_v38_apply, val_main_v35_apply, val_main_v37_apply, val_main_v36_apply, eb]
  exact congrArg (fun s : EReal => s + x10 (ix1 k)) (hs.trans
    (dot_cat2 (M := EReal) x0 (val_main_v33 (F := Ideal) x0 x1 x2 x3 x4 x5 x6 x7 x8)
      Cert.ReferenceIdeal.Gen.concatenates_S100000x128_S100000x128_S100000x256_d1 x9 hh hagg r k))

/-- phi's hidden layer: the host's x · (1 / (1 + exp (−x))) of the first layer is its `silu`. -/
theorem phi_act_ref (x0 : S100000x128.Idx → EReal) (x1 x2 x3 : S500000.Idx → BitVec 32) (x4 : S500000x4.Idx → EReal)
    (x5 : S388x128.Idx → EReal) (x6 : S128.Idx → EReal) (x7 : S128x128.Idx → EReal) (x8 : S128.Idx → EReal)
    (x9 : S256x128.Idx → EReal) (x10 : S128.Idx → EReal)
    (hh : S256x128.Slices ![0, 0] S128x128) (hagg : S256x128.Slices ![128, 0] S128x128)
    (r : Fin 100000) (k : Fin 128) :
    val_main_v39 (F := Ideal) x0 x1 x2 x3 x4 x5 x6 x7 x8 x9 x10 (ix2 r k)
      = silu (phiPre x0 (val_main_v33 (F := Ideal) x0 x1 x2 x3 x4 x5 x6 x7 x8)
          (extractStridedSlice S128x128 ![0, 0] x9 hh) (extractStridedSlice S128x128 ![128, 0] x9 hagg) x10 r k) := by
  rw [val_main_v39_apply, val_main_call1_v5_apply, val_main_call1_v4_apply, val_main_call1_cst_0_apply,
    val_main_call1_v3_apply, val_main_call1_v2_apply, val_main_call1_cst_apply, val_main_call1_v1_apply,
    val_main_call1_v0_apply, phi_pre_ref x0 x1 x2 x3 x4 x5 x6 x7 x8 x9 x10 hh hagg r k]
  exact silu_host _

/-- The reference's result (its buffer %44) is `phiOut` of the pair state, the aggregated messages (its buffer %33), the
    two row blocks of phi's first-layer weights, and the remaining parameters. -/
theorem phi_ref (x0 : S100000x128.Idx → EReal) (x1 x2 x3 : S500000.Idx → BitVec 32) (x4 : S500000x4.Idx → EReal)
    (x5 : S388x128.Idx → EReal) (x6 : S128.Idx → EReal) (x7 : S128x128.Idx → EReal) (x8 : S128.Idx → EReal)
    (x9 : S256x128.Idx → EReal) (x10 : S128.Idx → EReal) (x11 : S128x128.Idx → EReal) (x12 : S128.Idx → EReal)
    (hh : S256x128.Slices ![0, 0] S128x128) (hagg : S256x128.Slices ![128, 0] S128x128) :
    val_main_v44 (F := Ideal) x0 x1 x2 x3 x4 x5 x6 x7 x8 x9 x10 x11 x12
      = phiOut x0 (val_main_v33 (F := Ideal) x0 x1 x2 x3 x4 x5 x6 x7 x8)
          (extractStridedSlice S128x128 ![0, 0] x9 hh) (extractStridedSlice S128x128 ![128, 0] x9 hagg) x10 x11 x12 := by
  funext i
  obtain ⟨r, q, rfl⟩ : ∃ (r : Fin 100000) (q : Fin 128), i = ix2 r q := ⟨i 0, i 1, eq_ix2 i⟩
  have el : ∀ k : Fin 128, lidx_main_v40 (ix2 r q) k = ix2 r k := fun k =>
    funext fun a => Fin.ext (by match a with | ⟨0, _⟩ => rfl | ⟨1, _⟩ => rfl)
  have er : ∀ k : Fin 128, ridx_main_v40 (ix2 r q) k = ix2 k q := fun k =>
    funext fun a => Fin.ext (by match a with | ⟨0, _⟩ => rfl | ⟨1, _⟩ => rfl)
  have eb : idx_main_v41 (idx_main_v42 (ix2 r q)) = ix1 q :=
    funext fun a => Fin.ext (by match a with | ⟨0, _⟩ => rfl)
  have hs : ∑ k : Fin 128, val_main_v39 (F := Ideal) x0 x1 x2 x3 x4 x5 x6 x7 x8 x9 x10 (lidx_main_v40 (ix2 r q) k) * x11 (ridx_main_v40 (ix2 r q) k)
      = ∑ k : Fin 128, silu (phiPre x0 (val_main_v33 (F := Ideal) x0 x1 x2 x3 x4 x5 x6 x7 x8)
          (extractStridedSlice S128x128 ![0, 0] x9 hh) (extractStridedSlice S128x128 ![128, 0] x9 hagg) x10 r k) * x11 (ix2 k q) :=
    Finset.sum_congr rfl fun k _ => by rw [el k, er k, phi_act_ref x0 x1 x2 x3 x4 x5 x6 x7 x8 x9 x10 hh hagg r k]
  rw [val_main_v44_apply, val_main_v43_apply, val_main_v40_apply, val_main_v42_apply, val_main_v41_apply, eb]
  exact congrArg (fun s : EReal => x0 (ix2 r q) + (s + x12 (ix1 q))) hs

end Cert.ReferenceIdeal.Hand

end
-- ==== Proof.RefResult.lean ====
/-
  The reference program's result as ONE function of its arguments, in the specification's terms.

  The three endpoint arrays are gathers of rows of the pair states at the three index arrays, an index below zero first
  shifted up by the number of pairs; the messages are `psiOut` of them (RefValue); the aggregated messages are the
  message rows added into a zero array at the rows the third index array names; the result is `phiOut` of the pair
  states and the aggregated messages (RefValue). The gathers and the sum are the reference's own operations, kept as
  they are: nothing here reads them at an index.
-/
import proofs.«123935_j12051678233185_1_alg».proof.Proof.Gen.ReferenceIdeal.Read
import proofs.«123935_j12051678233185_1_alg».proof.Proof.RefValue

noncomputable section

open Idealize.ShloMosaic Idealize.ShloMosaic.ValueIdx Cert.MlpLib Cert.Spec

namespace Cert.ReferenceIdeal.Hand

open Cert.ReferenceIdeal Cert.ReferenceIdeal.Gen Cert.ReferenceIdeal.Read

/-- The rows of the pair states at the first index array. -/
theorem gather_vu (x0 : S100000x128.Idx → EReal) (x1 : S500000.Idx → BitVec 32) :
    val_main_v6 (F := Ideal) x0 x1 = (Host.gather gather_S100000x128_S500000x1_S500000x128_1_0_n_n_0_1_1128 x0 (broadcastInDim S500000x1 ![0] bcast_S500000_S500000x1_0 (select (cmpi .slt x1 (broadcastInDim S500000 ![] bcast_S_S500000 (constantI S_ 32 0#32))) (addi x1 (broadcastInDim S500000 ![] bcast_S_S500000 (constantI S_ 32 100000#32))) x1))) := rfl
/-- The rows of the pair states at the second index array. -/
theorem gather_uw (x0 : S100000x128.Idx → EReal) (x2 : S500000.Idx → BitVec 32) :
    val_main_v13 (F := Ideal) x0 x2 = (Host.gather gather_S100000x128_S500000x1_S500000x128_1_0_n_n_0_1_1128 x0 (broadcastInDim S500000x1 ![0] bcast_S500000_S500000x1_0 (select (cmpi .slt x2 (broadcastInDim S500000 ![] bcast_S_S500000 (constantI S_ 32 0#32))) (addi x2 (broadcastInDim S500000 ![] bcast_S_S500000 (constantI S_ 32 100000#32))) x2))) := rfl
/-- The rows of the pair states at the third index array. -/
theorem gather_vw (x0 : S100000x128.Idx → EReal) (x3 : S500000.Idx → BitVec 32) :
    val_main_v20 (F := Ideal) x0 x3 = (Host.gather gather_S100000x128_S500000x1_S500000x128_1_0_n_n_0_1_1128 x0 (broadcastInDim S500000x1 ![0] bcast_S500000_S500000x1_0 (select (cmpi .slt x3 (broadcastInDim S500000 ![] bcast_S_S500000 (constantI S_ 32 0#32))) (addi x3 (broadcastInDim S500000 ![] bcast_S_S500000 (constantI S_ 32 100000#32))) x3))) := rfl

/-- The aggregated messages: the message rows added into a zero array at the rows the third index array names. -/
theorem aggregate (x0 : S100000x128.Idx → EReal) (x1 x2 x3 : S500000.Idx → BitVec 32) (x4 : S500000x4.Idx → EReal)
    (x5 : S388x128.Idx → EReal) (x6 : S128.Idx → EReal) (x7 : S128x128.Idx → EReal) (x8 : S128.Idx → EReal) :
    val_main_v33 (F := Ideal) x0 x1 x2 x3 x4 x5 x6 x7 x8
      = Host.scatterAdd (F := Ideal) scatter_S100000x128_S500000x1_S500000x128_1_0_0_1
          (broadcastInDim S100000x128 ![] bcast_S_S100000x128 (constant (F := Ideal) S_ .f32 0x00000000#32))
          (broadcastInDim S500000x1 ![0] bcast_S500000_S500000x1_0 x3)
          (val_main_v30 (F := Ideal) x0 x1 x2 x3 x4 x5 x6 x7 x8) := rfl

/-- The reference's result. -/
theorem result_ref (x0 : S100000x128.Idx → EReal) (x1 x2 x3 : S500000.Idx → BitVec 32) (x4 : S500000x4.Idx → EReal)
    (x5 : S388x128.Idx → EReal) (x6 : S128.Idx → EReal) (x7 : S128x128.Idx → EReal) (x8 : S128.Idx → EReal)
    (x9 : S256x128.Idx → EReal) (x10 : S128.Idx → EReal) (x11 : S128x128.Idx → EReal) (x12 : S128.Idx → EReal)
    (ha : S388x128.Slices ![0, 0] S128x128) (hb : S388x128.Slices ![128, 0] S128x128)
    (hc : S388x128.Slices ![256, 0] S128x128) (hg : S388x128.Slices ![384, 0] (⟨2, ![4, 128]⟩ : Shape))
    (hh : S256x128.Slices ![0, 0] S128x128) (hagg : S256x128.Slices ![128, 0] S128x128) :
    val_main_v44 (F := Ideal) x0 x1 x2 x3 x4 x5 x6 x7 x8 x9 x10 x11 x12
      = phiOut x0
          (Host.scatterAdd (F := Ideal) scatter_S100000x128_S500000x1_S500000x128_1_0_0_1
            (broadcastInDim S100000x128 ![] bcast_S_S100000x128 (constant (F := Ideal) S_ .f32 0x00000000#32))
            (broadcastInDim S500000x1 ![0] bcast_S500000_S500000x1_0 x3)
            (psiOut (Host.gather gather_S100000x128_S500000x1_S500000x128_1_0_n_n_0_1_1128 x0 (broadcastInDim S500000x1 ![0] bcast_S500000_S500000x1_0 (select (cmpi .slt x1 (broadcastInDim S500000 ![] bcast_S_S500000 (constantI S_ 32 0#32))) (addi x1 (broadcastInDim S500000 ![] bcast_S_S500000 (constantI S_ 32 100000#32))) x1)))
              (Host.gather gather_S100000x128_S500000x1_S500000x128_1_0_n_n_0_1_1128 x0 (broadcastInDim S500000x1 ![0] bcast_S500000_S500000x1_0 (select (cmpi .slt x2 (broadcastInDim S500000 ![] bcast_S_S500000 (constantI S_ 32 0#32))) (addi x2 (broadcastInDim S500000 ![] bcast_S_S500000 (constantI S_ 32 100000#32))) x2)))
              (Host.gather gather_S100000x128_S500000x1_S500000x128_1_0_n_n_0_1_1128 x0 (broadcastInDim S500000x1 ![0] bcast_S500000_S500000x1_0 (select (cmpi .slt x3 (broadcastInDim S500000 ![] bcast_S_S500000 (constantI S_ 32 0#32))) (addi x3 (broadcastInDim S500000 ![] bcast_S_S500000 (constantI S_ 32 100000#32))) x3)))
              x4
              (extractStridedSlice S128x128 ![0, 0] x5 ha) (extractStridedSlice S128x128 ![128, 0] x5 hb)
              (extractStridedSlice S128x128 ![256, 0] x5 hc) (extractStridedSlice (⟨2, ![4, 128]⟩ : Shape) ![384, 0] x5 hg)
              x6 x7 x8))
          (extractStridedSlice S128x128 ![0, 0] x9 hh) (extractStridedSlice S128x128 ![128, 0] x9 hagg) x10 x11 x12 := by
  rw [phi_ref x0 x1 x2 x3 x4 x5 x6 x7 x8 x9 x10 x11 x12 hh hagg, aggregate, psi_ref x0 x1 x2 x3 x4 x5 x6 x7 x8 ha hb hc hg,
    gather_vu, gather_uw, gather_vw]

end Cert.ReferenceIdeal.Hand

end
-- ==== Proof.lean ====
/-
  The certificate of the local two-hop message-passing update: a tiled kernel program against its jnp reference.

  Both programs gather, for each of 500000 triplets, three rows of the 100000 × 128 pair states; push the joined row
  (the three endpoint rows and 4 geometric features) through a two-layer perceptron psi with the activation
  silu(x) = x · σ(x); add the resulting message rows onto the pairs named by the third index array; and push each pair's
  state joined with its aggregated messages through a second perceptron phi, adding the state back.

  The kernel program computes psi and phi in row tiles (4000 and 5000 rows per grid point) and never joins the rows:
  it cuts the first-layer weights into row blocks and adds the partial products, A·Wa + B·Wb + C·Wc + G·Wg, where the
  reference contracts the joined row [A B C G] with the whole matrix. On the extended reals these agree because a finite
  sum may be regrouped in any additive commutative monoid; no entry need be finite, so the precondition is never opened.
  The kernel's logistic and the reference's 1 / (1 + exp (−x)) are one function there, and every change of float format
  is the identity. The gathers and the scatter-add are the same host operations in both programs and are carried along
  unread.

  The two word-level and idealized kernel frames are the generated frame certificates; the reference's frame is its
  generated run with the result dropped; the ideal pass rewrote nothing, so `preserves` is trivially true; `algebraic`
  joins the kernel program's run read as a value (KernelValue) with the reference's run read as a value (RefResult).
-/
import proofs.«123935_j12051678233185_1_alg».proof.Defs
import proofs.«123935_j12051678233185_1_alg».proof.Proof.Gen.Kernel
import proofs.«123935_j12051678233185_1_alg».proof.Proof.Gen.Kernel.Frame
import proofs.«123935_j12051678233185_1_alg».proof.Proof.Gen.KernelIdeal
import proofs.«123935_j12051678233185_1_alg».proof.Proof.Gen.KernelIdeal.Frame
import proofs.«123935_j12051678233185_1_alg».proof.Proof.Gen.ReferenceIdeal
import proofs.«123935_j12051678233185_1_alg».proof.Proof.Gen.ReferenceIdeal.Run
import proofs.«123935_j12051678233185_1_alg».proof.Proof.Gen.ReferenceIdeal.Read
import proofs.«123935_j12051678233185_1_alg».proof.Proof.Gen.Pre_finite_inputs
import proofs.«123935_j12051678233185_1_alg».proof.Proof.KernelValue
import proofs.«123935_j12051678233185_1_alg».proof.Proof.RefResult
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernel_ideal : Cert.frame_KernelIdeal := fun m ρ _ => Cert.KernelIdeal.Gen.frame m ρ

/-- The idealized reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The reference's result, computed from the kernel program's launch memory, is the kernel program's result: the
    same gathers, `psiOut`, the same scatter-add, `phiOut`, over the same arrays. -/
theorem reference_eq_kernel (m : (ℓ : Loc Cert.KernelIdeal.nD Cert.KernelIdeal.τ Cert.KernelIdeal.sig) → Buf (Elt Ideal) ℓ) (c : Dev Cert.KernelIdeal.nD) :
    Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      = Cert.KernelIdeal.Result.result m c := by
  rw [Cert.ReferenceIdeal.Hand.result_ref _ _ _ _ _ _ _ _ _ _ _ _ _
    Cert.KernelIdeal.Gen.slices_S388x128_S128x128_0_0 Cert.KernelIdeal.Gen.slices_S388x128_S128x128_128_0
    Cert.KernelIdeal.Gen.slices_S388x128_S128x128_256_0 Cert.KernelIdeal.Gen.slices_S388x128_S4x128_384_0
    Cert.KernelIdeal.Gen.slices_S256x128_S128x128_0_0 Cert.KernelIdeal.Gen.slices_S256x128_S128x128_128_0]
  rfl

/-- From memories agreeing on the arguments both idealized programs run and end with equal results. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v44_eq, e0, e1, e2, e3, e4, e5, e6, e7, e8, e9, e10, e11, e12]
  exact reference_eq_kernel m c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
